-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x3x512x512 .f32) (main_arg1 : FVec F S16x3x512x512 .f32) (main_arg2 : IVec S16x3x512x512 32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  let main_c_2 : IVec S_ 32 := constantI S_ 32 0#32
  let main_v9 : IVec S16x3x512x512 32 := broadcastInDim S16x3x512x512 ![] bcast_S_S16x3x512x512 main_c_2
  let main_v10 : IVec S16x3x512x512 1 := cmpi .sge main_arg2 main_v9
  let main_c_3 : IVec S_ 1 := constantI S_ 1 1#1
  let main_v11 : IVec S_ 1 := (fun x v => Host.reduce IntOp.andi x v reducesTo_S16x3x512x512_S_d0_1_2_3 h_S_) main_v10 main_c_3
  let main_v12 : IVec S_ 1 := andi main_v8 main_v11
  let main_c_4 : IVec S_ 32 := constantI S_ 32 116#32
  let main_v13 : IVec S16x3x512x512 32 := broadcastInDim S16x3x512x512 ![] bcast_S_S16x3x512x512 main_c_4
  let main_v14 : IVec S16x3x512x512 1 := cmpi .slt main_arg2 main_v13
  let main_c_5 : IVec S_ 1 := constantI S_ 1 1#1
  let main_v15 : IVec S_ 1 := (fun x v => Host.reduce IntOp.andi x v reducesTo_S16x3x512x512_S_d0_1_2_3 h_S_) main_v14 main_c_5
  fn_part1 (F := F) main_v12 main_v15
-- ==== Kernel.lean ====
abbrev S16x3x512x512 : Shape := ⟨4, ![16, 3, 512, 512]⟩
abbrev S98304x128 : Shape := ⟨2, ![98304, 128]⟩
abbrev S2x8x128 : Shape := ⟨3, ![2, 8, 128]⟩
abbrev S4096x128 : Shape := ⟨2, ![4096, 128]⟩
abbrev S1x8x128 : Shape := ⟨3, ![1, 8, 128]⟩
abbrev S1x128 : Shape := ⟨2, ![1, 128]⟩
abbrev S1x4096x128 : Shape := ⟨3, ![1, 4096, 128]⟩
abbrev S1 : Shape := ⟨1, ![1]⟩
abbrev S1x1x1 : Shape := ⟨3, ![1, 1, 1]⟩
abbrev S1x1 : Shape := ⟨2, ![1, 1]⟩
abbrev S1x1x128 : Shape := ⟨3, ![1, 1, 128]⟩
abbrev S_ : Shape := ⟨0, ![]⟩
abbrev S128 : Shape := ⟨1, ![128]⟩
abbrev S116 : Shape := ⟨1, ![116]⟩

abbrev nBuf : Space → Nat
  | .hbm => 37
  | .vmem => 10
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x512, .i32⟩
  | .hbm, ⟨3, _⟩ => ⟨S98304x128, .f32⟩
  | .hbm, ⟨4, _⟩ => ⟨S98304x128, .f32⟩
  | .hbm, ⟨5, _⟩ => ⟨S98304x128, .i32⟩
  | .hbm, ⟨6, _⟩ => ⟨S2x8x128, .f32⟩
  | .hbm, ⟨7, _⟩ => ⟨S2x8x128, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S116, .f32⟩
  | .hbm, ⟨13, _⟩ => ⟨S116, .f32⟩
  | .hbm, ⟨14, _⟩ => ⟨S_, .f32⟩
  | .hbm, ⟨15, _⟩ => ⟨S116, .f32⟩
  | .hbm, ⟨16, _⟩ => ⟨S116, .f32⟩
  | .hbm, ⟨17, _⟩ => ⟨S116, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S116, .f32⟩
  | .hbm, ⟨25, _⟩ => ⟨S116, .f32⟩
  | .hbm, ⟨26, _⟩ => ⟨S_, .f32⟩
  | .hbm, ⟨27, _⟩ => ⟨S116, .f32⟩
  | .hbm, ⟨28, _⟩ => ⟨S116, .f32⟩
  | .hbm, ⟨29, _⟩ => ⟨S_, .f32⟩
  | .hbm, ⟨30, _⟩ => ⟨S116, .f32⟩
  | .hbm, ⟨31, _⟩ => ⟨S116, .f32⟩
  | .hbm, ⟨32, _⟩ => ⟨S116, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .i32⟩
  | .local _ .vmem, ⟨5, _⟩ => ⟨S4096x128, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x3x512x512_S98304x128 : S16x3x512x512.ShapeCasts S98304x128
  inb_S1x8x128_S1x8x128_0_0_0 : ∀ a, (![0, 0, 0] : Fin 3 → Nat) a + S1x8x128.size a ≤ S1x8x128.size a
  h_S1x8x128 : 0 < S1x8x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1x128_d1_w32 : S1x128.Iotas .tc 32 [1]
  natLt_1_32 : 1 < 32
  shapeCasts_S4096x128_S1x4096x128 : S4096x128.ShapeCasts S1x4096x128
  reduces_S1x4096x128_S1 : S1x4096x128.Reduces [1, 2] S1
  shapeCasts_S1_S1x1x1 : S1.ShapeCasts S1x1x1
  inpos_S1x1x1_p0_0_0 : ∀ a, (![0, 0, 0] : Fin 3 → Nat) a < S1x1x1.size a
  broadcasts_S1x1_S1x128 : S1x1.Broadcasts S1x128
  inb_S1x8x128_S1x1x128_0_0_0 : ∀ a, (![0, 0, 0] : Fin 3 → Nat) a + S1x1x128.size a ≤ S1x8x128.size a
  h_S1x1x128 : 0 < S1x1x128.numel
  shapeCasts_S1x1x128_S1x128 : S1x1x128.ShapeCasts S1x128
  shapeCasts_S1x128_S1x1x128 : S1x128.ShapeCasts S1x1x128
  reducesTo_S2x8x128_S128_d0_1 : S2x8x128.ReducesTo [0, 1] S128
  h_S_ : 0 < S_.numel
  slices_S128_S116_0 : S128.Slices ![0] S116
  bcast_S_S116 : S_.BroadcastsInDim S116 (![] : Fin 0 → Fin S116.rank)
  reducesTo_S116_S_d0 : S116.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S98304x128.size a
  hwx0_0 : ∀ i : grid0.Coords, EltTy.bits .f32 = 32 ∨ (Rect.block (s := S98304x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S98304x128.size a
  hwx0_1 : ∀ i : grid0.Coords, EltTy.bits .f32 = 32 ∨ (Rect.block (s := S98304x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S98304x128.size a
  hwx0_2 : ∀ i : grid0.Coords, EltTy.bits .i32 = 32 ∨ (Rect.block (s := S98304x128) S4096x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S12582912 : Shape := ⟨1, ![12582912]⟩
abbrev S_ : Shape := ⟨0, ![]⟩
abbrev S116 : Shape := ⟨1, ![116]⟩
abbrev S12582912x1 : Shape := ⟨2, ![12582912, 1]⟩
abbrev S16x3x512x512x1 : Shape := ⟨5, ![16, 3, 512, 512, 1]⟩

abbrev nBuf : Space → Nat
  | .hbm => 49
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x512, .i32⟩
  | .hbm, ⟨3, _⟩ => ⟨S16x3x512x512, .f32⟩
  | .hbm, ⟨4, _⟩ => ⟨S16x3x512x512, .f32⟩
  | .hbm, ⟨5, _⟩ => ⟨S12582912, .i32⟩
  | .hbm, ⟨6, _⟩ => ⟨S12582912, .f32⟩
  | .hbm, ⟨7, _⟩ => ⟨S_, .f32⟩
  | .hbm, ⟨8, _⟩ => ⟨S116, .f32⟩
  | .hbm, ⟨9, _⟩ => ⟨S12582912x1, .i32⟩
  | .hbm, ⟨10, _⟩ => ⟨S116, .f32⟩
  | .hbm, ⟨11, _⟩ => ⟨S_, .f32⟩
  | .hbm, ⟨12, _⟩ => ⟨S12582912, .f32⟩
  | .hbm, ⟨13, _⟩ => ⟨S_, .f32⟩
  | .hbm, ⟨14, _⟩ => ⟨S116, .f32⟩
  | .hbm, ⟨15, _⟩ => ⟨S12582912x1, .i32⟩
  | .hbm, ⟨16, _⟩ => ⟨S116, .f32⟩
  | .hbm, ⟨17, _⟩ => ⟨S_, .f32⟩
  | .hbm, ⟨18, _⟩ => ⟨S116, .f32⟩
  | .hbm, ⟨19, _⟩ => ⟨S116, .f32⟩
  | .hbm, ⟨20, _⟩ => ⟨S116, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S116, .f32⟩
  | .hbm, ⟨28, _⟩ => ⟨S116, .f32⟩
  | .hbm, ⟨29, _⟩ => ⟨S_, .f32⟩
  | .hbm, ⟨30, _⟩ => ⟨S116, .f32⟩
  | .hbm, ⟨31, _⟩ => ⟨S116, .f32⟩
  | .hbm, ⟨32, _⟩ => ⟨S_, .f32⟩
  | .hbm, ⟨33, _⟩ => ⟨S116, .f32⟩
  | .hbm, ⟨34, _⟩ => ⟨S116, .f32⟩
  | .hbm, ⟨35, _⟩ => ⟨S_, .i32⟩
  | .hbm, ⟨36, _⟩ => ⟨S16x3x512x512, .i32⟩
  | .hbm, ⟨37, _⟩ => ⟨S16x3x512x512, .i1⟩
  | .hbm, ⟨38, _⟩ => ⟨S_, .i32⟩
  | .hbm, ⟨39, _⟩ => ⟨S16x3x512x512, .i32⟩
  | .hbm, ⟨40, _⟩ => ⟨S16x3x512x512, .i32⟩
  | .hbm, ⟨41, _⟩ => ⟨S16x3x512x512, .i32⟩
  | .hbm, ⟨42, _⟩ => ⟨S16x3x512x512x1, .i32⟩
  | .hbm, ⟨43, _⟩ => ⟨S16x3x512x512, .f32⟩
  | .hbm, ⟨44, _⟩ => ⟨S16x3x512x512, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  shapeCasts_S16x3x512x512_S12582912 : S16x3x512x512.ShapeCasts S12582912
  bcast_S_S116 : S_.BroadcastsInDim S116 (![] : Fin 0 → Fin S116.rank)
  bcast_S12582912_S12582912x1_0 : S12582912.BroadcastsInDim S12582912x1 (![0] : Fin 1 → Fin S12582912x1.rank)
  bcast_S_S12582912 : S_.BroadcastsInDim S12582912 (![] : Fin 0 → Fin S12582912.rank)
  reducesTo_S116_S_d0 : S116.ReducesTo [0] S_
  h_S_ : 0 < S_.numel
  bcast_S_S16x3x512x512 : S_.BroadcastsInDim S16x3x512x512 (![] : Fin 0 → Fin S16x3x512x512.rank)
  bcast_S16x3x512x512_S16x3x512x512x1_0_1_2_3 : S16x3x512x512.BroadcastsInDim S16x3x512x512x1 (![0, 1, 2, 3] : Fin 4 → Fin S16x3x512x512x1.rank)
  reducesTo_S16x3x512x512_S_d0_1_2_3 : S16x3x512x512.ReducesTo [0, 1, 2, 3] S_
  scatter_S116_S12582912x1_S12582912_n_0_0_1_wf : ScatterDims.WF S116 S12582912x1 S12582912 [] [0] [0] 1
  gather_S116_S16x3x512x512x1_S16x3x512x512_n_0_n_n_0_4_1_wf : GatherDims.WF S116 S16x3x512x512x1 S16x3x512x512 [] [0] [] [0] [] 4 ![1]

variable [Facts₀]

def scatter_S116_S12582912x1_S12582912_n_0_0_1 : ScatterDims S116 S12582912x1 S12582912 where
  updateWindowDims := []
  insertedWindowDims := [0]
  scatterDimsToOperandDims := [0]
  indexVectorDim := 1
  wf := scatter_S116_S12582912x1_S12582912_n_0_0_1_wf
def gather_S116_S16x3x512x512x1_S16x3x512x512_n_0_n_n_0_4_1 : GatherDims S116 S16x3x512x512x1 S16x3x512x512 where
  offsetDims := []
  collapsedSliceDims := [0]
  operandBatchingDims := []
  startIndicesBatchingDims := []
  startIndexMap := [0]
  indexVectorDim := 4
  sliceSizes := ![1]
  wf := gather_S116_S16x3x512x512x1_S16x3x512x512_n_0_n_n_0_4_1_wf

class Facts : Prop extends Facts₀ where

variable [Facts]
-- ==== Proof.BodyFold.lean ====
import proofs.«430357_j57982058496540_3_alg».proof.Proof.Gen.KernelIdeal.Frame

/-!
# The kernel body as a fold over the regions

One run of the body handles a block of 4096 × 128 elements.  For each region number `r` in turn it builds
the mask of the block's elements whose region word, converted to a float, equals the constant `r`, adds
up the masked losses and the mask itself over the whole block, and adds the two totals into lane `r` of
two 128-lane accumulators (a lane select on `lane = r`).  After the last region the accumulators are added
into row 0 of the two output blocks.  The body is printed with the 116 regions unrolled; here the same
computation is written as a left fold of one step over the list of the 116 pairs (the region number as a
bf16 pattern, the region number as a lane word), and the values the body's run stores are shown to be
that fold, by unfolding alone.
-/

set_option maxRecDepth 65536
set_option maxHeartbeats 2000000

noncomputable section

namespace Cert.KernelIdeal.Body

open Idealize.ShloMosaic Idealize.ShloMosaic.TcCoe Idealize.SL.Sem Cert.KernelIdeal Cert.KernelIdeal.Gen

variable {F : FTy → Type} [FloatOps F]

/-- The mask of the elements whose converted region word equals the bf16 pattern `w`: 1.0 there, 0.0 elsewhere. -/
def maskOf (idsf : FVec F S4096x128 .bf16) (w : BitVec 16) : FVec F S4096x128 .f32 :=
  sitofp .f32 (extui 32 (cmpf .oeq idsf (broadcast S4096x128 (Scalar.ofBits .bf16 w))) natLt_1_32)

/-- The sum of a whole block, as a 1 × 1 vector. -/
def blockTotal (v : FVec F S4096x128 .f32) : FVec F S1x1 .f32 :=
  broadcast S1x1 (extractAt ![0, 0, 0] (shapeCast S1x1x1 (multiReduction .add [1, 2] S1
    (shapeCast S1x4096x128 v shapeCasts_S4096x128_S1x4096x128) 0x00000000#32 reduces_S1x4096x128_S1 (.inl rfl) rfl)
    shapeCasts_S1_S1x1x1) inpos_S1x1x1_p0_0_0)

/-- One region's step on the lane accumulator of the masked losses: the block's masked-loss total goes into the
    lane whose number is the region's. -/
def stepSum (loss : FVec F S4096x128 .f32) (idsf : FVec F S4096x128 .bf16) (lanes : IVec S1x128 32)
    (acc : FVec F S1x128 .f32) (p : BitVec 16 × BitVec 32) : FVec F S1x128 .f32 :=
  select (cmpi .eq lanes (broadcast S1x128 p.2))
    (addf acc (broadcastTo S1x128 (blockTotal (mulf loss (maskOf idsf p.1))) broadcasts_S1x1_S1x128)) acc

/-- One region's step on the lane accumulator of the counts: the mask's total goes into the region's lane. -/
def stepCnt (idsf : FVec F S4096x128 .bf16) (lanes : IVec S1x128 32)
    (acc : FVec F S1x128 .f32) (p : BitVec 16 × BitVec 32) : FVec F S1x128 .f32 :=
  select (cmpi .eq lanes (broadcast S1x128 p.2))
    (addf acc (broadcastTo S1x128 (blockTotal (maskOf idsf p.1)) broadcasts_S1x1_S1x128)) acc

/-- The 116 regions in the body's order: the region number as a bf16 pattern and as a lane word. -/
def regionConsts : List (BitVec 16 × BitVec 32) :=
  [ (0x0000#16, 0#32), (0x3F80#16, 1#32), (0x4000#16, 2#32), (0x4040#16, 3#32), (0x4080#16, 4#32), (0x40A0#16, 5#32),
    (0x40C0#16, 6#32), (0x40E0#16, 7#32), (0x4100#16, 8#32), (0x4110#16, 9#32), (0x4120#16, 10#32), (0x4130#16, 11#32),
    (0x4140#16, 12#32), (0x4150#16, 13#32), (0x4160#16, 14#32), (0x4170#16, 15#32), (0x4180#16, 16#32), (0x4188#16, 17#32),
    (0x4190#16, 18#32), (0x4198#16, 19#32), (0x41A0#16, 20#32), (0x41A8#16, 21#32), (0x41B0#16, 22#32), (0x41B8#16, 23#32),
    (0x41C0#16, 24#32), (0x41C8#16, 25#32), (0x41D0#16, 26#32), (0x41D8#16, 27#32), (0x41E0#16, 28#32), (0x41E8#16, 29#32),
    (0x41F0#16, 30#32), (0x41F8#16, 31#32), (0x4200#16, 32#32), (0x4204#16, 33#32), (0x4208#16, 34#32), (0x420C#16, 35#32),
    (0x4210#16, 36#32), (0x4214#16, 37#32), (0x4218#16, 38#32), (0x421C#16, 39#32), (0x4220#16, 40#32), (0x4224#16, 41#32),
    (0x4228#16, 42#32), (0x422C#16, 43#32), (0x4230#16, 44#32), (0x4234#16, 45#32), (0x4238#16, 46#32), (0x423C#16, 47#32),
    (0x4240#16, 48#32), (0x4244#16, 49#32), (0x4248#16, 50#32), (0x424C#16, 51#32), (0x4250#16, 52#32), (0x4254#16, 53#32),
    (0x4258#16, 54#32), (0x425C#16, 55#32), (0x4260#16, 56#32), (0x4264#16, 57#32), (0x4268#16, 58#32), (0x426C#16, 59#32),
    (0x4270#16, 60#32), (0x4274#16, 61#32), (0x4278#16, 62#32), (0x427C#16, 63#32), (0x4280#16, 64#32), (0x4282#16, 65#32),
    (0x4284#16, 66#32), (0x4286#16, 67#32), (0x4288#16, 68#32), (0x428A#16, 69#32), (0x428C#16, 70#32), (0x428E#16, 71#32),
    (0x4290#16, 72#32), (0x4292#16, 73#32), (0x4294#16, 74#32), (0x4296#16, 75#32), (0x4298#16, 76#32), (0x429A#16, 77#32),
    (0x429C#16, 78#32), (0x429E#16, 79#32), (0x42A0#16, 80#32), (0x42A2#16, 81#32), (0x42A4#16, 82#32), (0x42A6#16, 83#32),
    (0x42A8#16, 84#32), (0x42AA#16, 85#32), (0x42AC#16, 86#32), (0x42AE#16, 87#32), (0x42B0#16, 88#32), (0x42B2#16, 89#32),
    (0x42B4#16, 90#32), (0x42B6#16, 91#32), (0x42B8#16, 92#32), (0x42BA#16, 93#32), (0x42BC#16, 94#32), (0x42BE#16, 95#32),
    (0x42C0#16, 96#32), (0x42C2#16, 97#32), (0x42C4#16, 98#32), (0x42C6#16, 99#32), (0x42C8#16, 100#32), (0x42CA#16, 101#32),
    (0x42CC#16, 102#32), (0x42CE#16, 103#32), (0x42D0#16, 104#32), (0x42D2#16, 105#32), (0x42D4#16, 106#32), (0x42D6#16, 107#32),
    (0x42D8#16, 108#32), (0x42DA#16, 109#32), (0x42DC#16, 110#32), (0x42DE#16, 111#32), (0x42E0#16, 112#32), (0x42E2#16, 113#32),
    (0x42E4#16, 114#32), (0x42E6#16, 115#32) ]

/-- A whole 4096 × 128 staging buffer read back after nothing was written to it. -/
abbrev ld {φ : EltTy} (arg : Memref sig .tc .vmem S4096x128 φ) (h : arg.IsWhole) (x : Vec F S4096x128 φ) : Vec F S4096x128 φ :=
  View.readAt (Elt F) arg.view (Rect.unit (s := S4096x128) ![0, 0] S4096x128.size inb_S4096x128_S4096x128_0_0).toLoadRect (h.unread x)

/-- The lanes' numbers, and the zero accumulator both folds start from. -/
abbrev lanes : IVec S1x128 32 := iota .tc S1x128 32 [1] iota_S1x128_d1_w32
abbrev zeroAcc : FVec F S1x128 .f32 := broadcast S1x128 (Scalar.ofBits .f32 0x00000000#32)

/-- The masked-loss accumulator after all regions, from the three input blocks. -/
def accSum (x0 x1 : Vec F S4096x128 .f32) (x2 : Vec F S4096x128 .i32) : FVec F S1x128 .f32 :=
  regionConsts.foldl (stepSum (k0_pay4 x0 x1) (k0_pay5 x2) lanes) zeroAcc

/-- The count accumulator after all regions, from the region words' block. -/
def accCnt (x2 : Vec F S4096x128 .i32) : FVec F S1x128 .f32 :=
  regionConsts.foldl (stepCnt (k0_pay5 (F := F) x2) lanes) zeroAcc

/-- What the body stores into row 0 of an output block: the row as it was, plus the accumulator. -/
def rowStore (old : Vec F S1x1x128 .f32) (acc : FVec F S1x128 .f32) : FVec F S1x1x128 .f32 :=
  shapeCast S1x1x128 (addf (shapeCast S1x128 old shapeCasts_S1x1x128_S1x128) acc) shapeCasts_S1x128_S1x1x128

/-- Row 0 of an output block, as a rectangle of the block. -/
abbrev row0 : Rect S1x8x128 := Rect.unit (s := S1x8x128) ![0, 0, 0] S1x1x128.size inb_S1x8x128_S1x1x128_0_0_0
/-- The whole output block, as a rectangle. -/
abbrev whole0 : Rect S1x8x128 := Rect.unit (s := S1x8x128) ![0, 0, 0] S1x8x128.size inb_S1x8x128_S1x8x128_0_0_0

section pieces
variable (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .i32) (harg4 : arg4.IsWhole) (arg5 : Memref sig .tc .vmem S1x8x128 .f32) (harg5 : arg5.IsWhole) (arg6 : Memref sig .tc .vmem S1x8x128 .f32) (harg6 : arg6.IsWhole)
  (x0 : Vec F S4096x128 .f32) (x1 : Vec F S4096x128 .f32) (x2 : Vec F S4096x128 .i32)

/-- Away from a core's first point the sums block gets one store: row 0, the old row plus the masked-loss accumulator. -/
theorem piecesB_3 (hc0 : ¬cond0_0 i) (xo3 xo4 : Vec F S1x8x128 .f32) :
    (kernelRun0_B c i arg2 harg2 arg3 harg3 arg4 harg4 arg5 harg5 arg6 harg6 hc0 x0 x1 x2 xo3 xo4).1
      = [⟨row0, rowStore (View.readAt (Elt F) arg5.view row0.toLoadRect (harg5.unread xo3))
          (accSum (ld arg2 harg2 x0) (ld arg3 harg3 x1) (ld arg4 harg4 x2))⟩] := rfl

/-- and the counts block likewise, with the count accumulator. -/
theorem piecesB_4 (hc0 : ¬cond0_0 i) (xo3 xo4 : Vec F S1x8x128 .f32) :
    (kernelRun0_B c i arg2 harg2 arg3 harg3 arg4 harg4 arg5 harg5 arg6 harg6 hc0 x0 x1 x2 xo3 xo4).2.1
      = [⟨row0, rowStore (View.readAt (Elt F) arg6.view row0.toLoadRect (harg6.unread xo4))
          (accCnt (ld arg4 harg4 x2))⟩] := rfl

/-- At a core's first point the sums block is first zeroed whole; row 0 then gets the zeroed row plus the accumulator. -/
theorem piecesA_3 (hc0 : cond0_0 i) :
    (kernelRun0_A c i arg2 harg2 arg3 harg3 arg4 harg4 arg5 harg5 arg6 harg6 hc0 x0 x1 x2).1
      = [⟨row0, rowStore (arg5.view.readCov [⟨whole0, k0_pay2 (F := F)⟩] row0.toLoadRect)
          (accSum (ld arg2 harg2 x0) (ld arg3 harg3 x1) (ld arg4 harg4 x2))⟩, ⟨whole0, k0_pay2 (F := F)⟩] := rfl

/-- and the counts block likewise. -/
theorem piecesA_4 (hc0 : cond0_0 i) :
    (kernelRun0_A c i arg2 harg2 arg3 harg3 arg4 harg4 arg5 harg5 arg6 harg6 hc0 x0 x1 x2).2.1
      = [⟨row0, rowStore (arg6.view.readCov [⟨whole0, k0_pay3 (F := F)⟩] row0.toLoadRect)
          (accCnt (ld arg4 harg4 x2))⟩, ⟨whole0, k0_pay3 (F := F)⟩] := rfl

end pieces

end Cert.KernelIdeal.Body

end
-- ==== Proof.Spec.lean ====
import Idealize.ShloMosaic.PureOps.Ideal
import Idealize.ShloMosaic.PureOps.Ideal.Laws
import Idealize.ShloMosaic.Lib.ValueIdx

/-!
# The common value of the two programs

Every element `x` of the three input arrays carries a loss `|real x - fake x|` and a region word
`ids x`.  For a region number `r` the *region sum* is the sum of the losses of the elements whose word,
read as a signed integer, is `r`, and the *region count* is the number of such elements.  From the 116
region sums `S` and counts `C` both programs form the same weights
`w r = 1 + γ · ((S r / (C r + ε)) / (max (max_r (S r / (C r + ε))) 0 + ε))` and return
`(∑ r, w r · S r) / n`.  This module states those quantities once, over the extended reals; the weights are
kept as one function of `S` and `C` that nothing below ever opens.
-/

noncomputable section

namespace Cert.Spec

open Idealize.ShloMosaic

/-- The inputs' shape, the shape of a per-region vector, and the scalar shape. -/
abbrev SX : Shape := ⟨4, ![16, 3, 512, 512]⟩
abbrev SR : Shape := ⟨1, ![116]⟩
abbrev S0 : Shape := ⟨0, ![]⟩

/-- `1` where the word, read signed, is the region number `r`; `0` elsewhere. -/
def hit (id : BitVec 32) (r : ℕ) : EReal := if id.toInt = (r : ℤ) then 1 else 0

/-- The loss of one element: the absolute value of the difference, on the extended reals. -/
def lossAt (a b : EReal) : EReal := max (a - b) (-(a - b))

theorem lossAt_nonneg (a b : EReal) : 0 ≤ lossAt a b := by
  unfold lossAt
  rcases le_total 0 (a - b) with h | h
  · exact le_max_of_le_left h
  · exact le_max_of_le_right (EReal.neg_nonneg.mpr h)

/-- The sum of the losses of the elements of region `r`. -/
def regionSum (a b : SX.Idx → EReal) (ids : SX.Idx → BitVec 32) : SR.Idx → EReal :=
  fun r => ∑ x : SX.Idx, lossAt (a x) (b x) * hit (ids x) (r 0).val

/-- The number of elements of region `r`. -/
def regionCnt (ids : SX.Idx → BitVec 32) : SR.Idx → EReal :=
  fun r => ∑ x : SX.Idx, hit (ids x) (r 0).val

/-- The per-region weights as a function of the region sums and counts: the mean loss of a region over the
    largest mean (or zero), scaled by `γ` and shifted by one. -/
def weights (hb : S0.BroadcastsInDim SR (![] : Fin 0 → Fin SR.rank)) (hr : SR.ReducesTo [0] S0) (h0 : 0 < S0.numel)
    (S C : FVec Ideal SR .f32) : FVec Ideal SR .f32 :=
  addf (broadcastInDim SR ![] hb (constant (F := Ideal) S0 .f32 0x3F800000#32))
    (mulf (broadcastInDim SR ![] hb (constant (F := Ideal) S0 .f32 0x3A83126F#32))
      (Host.divf (F := Ideal) (Host.divf (F := Ideal) S (addf C (broadcastInDim SR ![] hb (constant (F := Ideal) S0 .f32 0x358637BD#32))))
        (broadcastInDim SR ![] hb
          (addf (maximumf
              (Host.reduce (FloatOps.maximumf (F := Ideal) (φ := .f32))
                (Host.divf (F := Ideal) S (addf C (broadcastInDim SR ![] hb (constant (F := Ideal) S0 .f32 0x358637BD#32))))
                (constant (F := Ideal) S0 .f32 0xFF800000#32) hr h0)
              (constant (F := Ideal) S0 .f32 0x00000000#32))
            (constant (F := Ideal) S0 .f32 0x358637BD#32)))))

/-- The value both programs return: the weighted sum of the region sums over the number of elements. -/
def result (hb : S0.BroadcastsInDim SR (![] : Fin 0 → Fin SR.rank)) (hr : SR.ReducesTo [0] S0) (h0 : 0 < S0.numel)
    (a b : SX.Idx → EReal) (ids : SX.Idx → BitVec 32) : FVec Ideal S0 .f32 :=
  Host.divf (F := Ideal)
    (Host.reduceAdd (F := Ideal) (mulf (weights hb hr h0 (regionSum a b ids) (regionCnt ids)) (regionSum a b ids))
      (constant (F := Ideal) S0 .f32 0x00000000#32) hr h0)
    (constant (F := Ideal) S0 .f32 0x4B400000#32)

end Cert.Spec

end
-- ==== Proof.BodyValue.lean ====
import proofs.«430357_j57982058496540_3_alg».proof.Proof.BodyFold
import proofs.«430357_j57982058496540_3_alg».proof.Proof.Spec
import Idealize.ShloMosaic.Lib.ValueIdx
import Idealize.ShloMosaic.Lib.Pipeline.Value
import Idealize.ShloMosaic.PureOps.Ideal.Laws

/-!
# The body's two accumulators on the extended reals

Read at the exact instance, the conversion of a region word to a float is the word's signed value, a float
constant is the number its pattern denotes, and the comparison is the order's.  The 116 bf16 patterns denote
0, 1, …, 115, so region `r`'s mask is 1 exactly on the elements whose word is `r`.  A lane select on
`lane = r` puts region `r`'s totals into lane `r` and nowhere else, so after the fold lane `l < 116` holds
region `l`'s total and the lanes from 116 on still hold zero.
-/

noncomputable section

namespace Cert.KernelIdeal.Body

open Idealize.ShloMosaic Idealize.ShloMosaic.TcCoe Cert.KernelIdeal Cert.KernelIdeal.Gen

open Idealize.ShloMosaic.ValueIdx

/-! ## The region constants -/

/-- Each of the 116 bf16 patterns denotes the number of its region. -/
theorem regionConsts_denote :
    ∀ p ∈ regionConsts, Ideal.ofBits .bf16 p.1 = (((p.2.toNat : ℕ) : ℝ) : EReal) := by
  simp only [regionConsts, List.forall_mem_cons]
  repeat' apply And.intro
  all_goals (simp [Ideal.ofBits, Ideal.ieee]; try (norm_cast; norm_num))

/-- The lane words of the regions are 0, 1, …, 115 in order. -/
theorem regionConsts_lanes : regionConsts.map (fun p => p.2.toNat) = List.range 116 := by decide

/-! ## Words and lanes -/

/-- Lane `l` of the lane numbers is the word `l`. -/
theorem lanes_apply (l : Fin 128) : (lanes : IVec S1x128 32) (ix2 (0 : Fin 1) l) = BitVec.ofNat 32 l.val := by
  show iota .tc S1x128 32 [1] iota_S1x128_d1_w32 _ = _
  rw [iota_single_apply]

/-- A select on an equality test of two words is the `if` on their equality. -/
theorem select_cmpi_eq {α : Type} (x y : BitVec 32) (a b : α) :
    Scalar.select (IntOp.cmpi .eq x y) a b = if x = y then a else b := by
  show (if BitVec.ofBool (x == y) = 1#1 then a else b) = _
  by_cases h : x = y
  · rw [beq_iff_eq.mpr h, if_pos h, if_pos (by decide)]
  · rw [beq_eq_false_iff_ne.mpr h, if_neg h, if_neg (by decide)]

/-- A word equals a lane's number exactly when its value is the lane. -/
theorem ofNat_lane_eq_iff (l : Fin 128) (w : BitVec 32) : BitVec.ofNat 32 l.val = w ↔ w.toNat = l.val := by
  have hl := l.isLt
  constructor
  · rintro rfl
    rw [BitVec.toNat_ofNat]; omega
  · intro h
    apply BitVec.eq_of_toNat_eq
    rw [BitVec.toNat_ofNat, h]; omega

/-- The one-bit answer of a test, widened to a word and read signed, is 1 or 0. -/
theorem toInt_setWidth_ofBool (b : Bool) : ((BitVec.ofBool b).setWidth 32).toInt = if b then 1 else 0 := by
  cases b <;> decide

/-! ## One step and the fold, at a lane -/

/-- One region's step read at lane `l`: the total is added when the lane's number is the region's word. -/
theorem step_apply (T : FVec Ideal S1x1 .f32) (acc : FVec Ideal S1x128 .f32) (w : BitVec 32) (l : Fin 128) :
    select (cmpi .eq lanes (broadcast S1x128 w)) (addf acc (broadcastTo S1x128 T broadcasts_S1x1_S1x128)) acc (ix2 (0 : Fin 1) l)
      = acc (ix2 (0 : Fin 1) l) + (if w.toNat = l.val then T (ix2 (0 : Fin 1) (0 : Fin 1)) else 0) := by
  have hb : broadcastTo S1x128 T broadcasts_S1x1_S1x128 (ix2 (0 : Fin 1) l) = T (ix2 (0 : Fin 1) (0 : Fin 1)) :=
    broadcastTo_apply T _ _ _ (fun a => by match a with | ⟨0, _⟩ => rfl | ⟨1, _⟩ => rfl)
  show Scalar.select (IntOp.cmpi .eq ((lanes : IVec S1x128 32) (ix2 (0 : Fin 1) l)) w)
    (acc (ix2 (0 : Fin 1) l) + broadcastTo S1x128 T broadcasts_S1x1_S1x128 (ix2 (0 : Fin 1) l)) (acc (ix2 (0 : Fin 1) l)) = _
  rw [hb, lanes_apply, select_cmpi_eq]
  by_cases h : w.toNat = l.val
  · rw [if_pos ((ofNat_lane_eq_iff l w).mpr h), if_pos h]
  · rw [if_neg (fun h' => h ((ofNat_lane_eq_iff l w).mp h')), if_neg h, add_zero]

/-- A fold of steps that each add a term to lane `l` adds the sum of the terms. -/
theorem foldl_lane {β : Type} (f : FVec Ideal S1x128 .f32 → β → FVec Ideal S1x128 .f32) (g : β → EReal) (l : Fin 128)
    (hf : ∀ acc p, f acc p (ix2 (0 : Fin 1) l) = acc (ix2 (0 : Fin 1) l) + g p) (cs : List β) (acc : FVec Ideal S1x128 .f32) :
    cs.foldl f acc (ix2 (0 : Fin 1) l) = acc (ix2 (0 : Fin 1) l) + (cs.map g).sum := by
  induction cs generalizing acc with
  | nil => simp
  | cons p cs ih => rw [List.foldl_cons, ih, hf, List.map_cons, List.sum_cons, add_assoc]

/-- Over 0, 1, …, n − 1 the terms that are `G` at `l` and zero elsewhere sum to `G` when `l < n`, to zero otherwise. -/
theorem sum_range_ite (n l : ℕ) (G : EReal) :
    ((List.range n).map (fun k => if k = l then G else 0)).sum = if l < n then G else 0 := by
  induction n with
  | zero => simp
  | succ n ih =>
    rw [List.range_succ, List.map_append, List.sum_append, ih]
    simp only [List.map_cons, List.map_nil, List.sum_cons, List.sum_nil, add_zero]
    by_cases h1 : l < n
    · have h2 : n ≠ l := by omega
      have h3 : l < n + 1 := by omega
      rw [if_pos h1, if_neg h2, if_pos h3, add_zero]
    · by_cases h3 : n = l
      · have h4 : l < n + 1 := by omega
        rw [if_neg h1, if_pos h3, if_pos h4, zero_add]
      · have h4 : ¬ l < n + 1 := by omega
        rw [if_neg h1, if_neg h3, if_neg h4, add_zero]

/-- The sum over the regions of the terms that are `G n` on the region whose lane word is `l`: `G l` below 116. -/
theorem sum_regions (G : ℕ → EReal) (l : ℕ) :
    (regionConsts.map (fun p => if p.2.toNat = l then G p.2.toNat else 0)).sum = if l < 116 then G l else 0 := by
  have h1 : (fun p : BitVec 16 × BitVec 32 => if p.2.toNat = l then G p.2.toNat else 0)
      = (fun k : ℕ => if k = l then G l else 0) ∘ (fun p : BitVec 16 × BitVec 32 => p.2.toNat) := by
    funext p
    show _ = if p.2.toNat = l then G l else 0
    by_cases h : p.2.toNat = l
    · rw [if_pos h, if_pos h, h]
    · rw [if_neg h, if_neg h]
  rw [h1, ← List.map_map, regionConsts_lanes, sum_range_ite]

/-! ## The block total and the mask -/

/-- The shells around a reduced vector read through: the 1 × 1 broadcast of its extracted element is the vector at one index. -/
theorem shell_apply (u : FVec Ideal S1 .f32) (k : S1x1.Idx) :
    broadcast S1x1 (extractAt ![0, 0, 0] (shapeCast S1x1x1 u shapeCasts_S1_S1x1x1) inpos_S1x1x1_p0_0_0) k
      = u (Shape.reshapeEquiv shapeCasts_S1_S1x1x1 (fun a => ⟨![0, 0, 0] a, inpos_S1x1x1_p0_0_0 a⟩)) := rfl

/-- The reduced shape's one axis has size one. -/
theorem S1_size (b : Fin S1.rank) : S1.size b = 1 := by
  match b with | ⟨0, _⟩ => rfl

/-- The block total, at its one index, is the sum over the whole block. -/
theorem blockTotal_apply (v : FVec Ideal S4096x128 .f32) (k : S1x1.Idx) : blockTotal v k = ∑ j : S4096x128.Idx, v j := by
  unfold blockTotal
  rw [shell_apply]
  refine (Ideal.multiReduction_add_total _ _ _ S1_size _ _ _).trans ?_
  exact Fintype.sum_equiv (Shape.reshapeEquiv shapeCasts_S4096x128_S1x4096x128) _ _ (fun i => rfl)

/-- The mask of a pattern, at an element: 1 where the converted word is the number the pattern denotes. -/
theorem maskOf_apply (idsf : FVec Ideal S4096x128 .bf16) (w : BitVec 16) (j : S4096x128.Idx) :
    maskOf idsf w j = if idsf j = Ideal.ofBits .bf16 w then 1 else 0 := by
  show (((BitVec.setWidth 32 (Ideal.cmp .oeq (idsf j) (Ideal.ofBits .bf16 w))).toInt : ℝ) : EReal) = _
  unfold Ideal.cmp
  rw [toInt_setWidth_ofBool]
  by_cases h : idsf j = Ideal.ofBits .bf16 w
  · simp [h]
  · simp [h]

/-- The converted region word of an element is the word's signed value. -/
theorem pay5_apply (x2 : Vec Ideal S4096x128 .i32) (j : S4096x128.Idx) :
    k0_pay5 (F := Ideal) x2 j = (((x2 j).toInt : ℝ) : EReal) := by
  unfold k0_pay5
  rw [shapeCast_self]
  rfl

/-- The loss payload of an element is the absolute difference. -/
theorem pay4_apply (x0 x1 : Vec Ideal S4096x128 .f32) (j : S4096x128.Idx) :
    k0_pay4 (F := Ideal) x0 x1 j = Cert.Spec.lossAt (x0 j) (x1 j) := by
  unfold k0_pay4
  rw [shapeCast_self, shapeCast_self]
  rfl

/-- For a region of the list, the mask at an element is the region's hit. -/
theorem mask_region (x2 : Vec Ideal S4096x128 .i32) (p : BitVec 16 × BitVec 32) (hp : p ∈ regionConsts) (j : S4096x128.Idx) :
    maskOf (k0_pay5 (F := Ideal) x2) p.1 j = Cert.Spec.hit (x2 j) p.2.toNat := by
  rw [maskOf_apply, pay5_apply, regionConsts_denote p hp]
  unfold Cert.Spec.hit
  have hiff : ((((x2 j).toInt : ℝ) : EReal) = (((p.2.toNat : ℕ) : ℝ) : EReal)) ↔ (x2 j).toInt = ((p.2.toNat : ℕ) : ℤ) := by
    rw [EReal.coe_eq_coe_iff, ← Int.cast_natCast (R := ℝ), Int.cast_inj]
  by_cases h : (x2 j).toInt = ((p.2.toNat : ℕ) : ℤ)
  · rw [if_pos (hiff.mpr h), if_pos h]
  · rw [if_neg (fun h' => h (hiff.mp h')), if_neg h]

/-- Lane `l` of the masked-loss accumulator: region `l`'s total loss over the block, zero from lane 116 on. -/
theorem accSum_apply (x0 x1 : Vec Ideal S4096x128 .f32) (x2 : Vec Ideal S4096x128 .i32) (l : Fin 128) :
    accSum (F := Ideal) x0 x1 x2 (ValueIdx.ix2 (0 : Fin 1) l)
      = if l.val < 116 then ∑ j : S4096x128.Idx, Cert.Spec.lossAt (x0 j) (x1 j) * Cert.Spec.hit (x2 j) l.val else 0 := by
  unfold accSum
  rw [foldl_lane _ (fun p => if p.2.toNat = l.val then
      blockTotal (mulf (k0_pay4 (F := Ideal) x0 x1) (maskOf (k0_pay5 (F := Ideal) x2) p.1)) (ix2 (0 : Fin 1) (0 : Fin 1)) else 0) l
      (fun acc p => step_apply _ acc p.2 l)]
  have h0 : (zeroAcc : FVec Ideal S1x128 .f32) (ix2 (0 : Fin 1) l) = 0 := Ideal.ofBits_zero_f32
  rw [h0, zero_add]
  rw [← sum_regions (fun n => ∑ j : S4096x128.Idx, Cert.Spec.lossAt (x0 j) (x1 j) * Cert.Spec.hit (x2 j) n) l.val]
  refine congrArg List.sum (List.map_congr_left fun p hp => ?_)
  by_cases h : p.2.toNat = l.val
  · rw [if_pos h, if_pos h, blockTotal_apply]
    refine Finset.sum_congr rfl fun j _ => ?_
    rw [mulf_apply, pay4_apply, mask_region x2 p hp]
  · rw [if_neg h, if_neg h]

/-- Lane `l` of the count accumulator: region `l`'s number of elements in the block, zero from lane 116 on. -/
theorem accCnt_apply (x2 : Vec Ideal S4096x128 .i32) (l : Fin 128) :
    accCnt (F := Ideal) x2 (ValueIdx.ix2 (0 : Fin 1) l)
      = if l.val < 116 then ∑ j : S4096x128.Idx, Cert.Spec.hit (x2 j) l.val else 0 := by
  unfold accCnt
  rw [foldl_lane _ (fun p => if p.2.toNat = l.val then
      blockTotal (maskOf (k0_pay5 (F := Ideal) x2) p.1) (ix2 (0 : Fin 1) (0 : Fin 1)) else 0) l
      (fun acc p => step_apply _ acc p.2 l)]
  have h0 : (zeroAcc : FVec Ideal S1x128 .f32) (ix2 (0 : Fin 1) l) = 0 := Ideal.ofBits_zero_f32
  rw [h0, zero_add]
  rw [← sum_regions (fun n => ∑ j : S4096x128.Idx, Cert.Spec.hit (x2 j) n) l.val]
  refine congrArg List.sum (List.map_congr_left fun p hp => ?_)
  by_cases h : p.2.toNat = l.val
  · rw [if_pos h, if_pos h, blockTotal_apply]
    exact Finset.sum_congr rfl fun j _ => mask_region x2 p hp j
  · rw [if_neg h, if_neg h]

end Cert.KernelIdeal.Body

end
-- ==== Proof.SumReindex.lean ====
import proofs.«430357_j57982058496540_3_alg».proof.Proof.Spec

/-!
# Three ways of listing the elements

The inputs are [16, 3, 512, 512] arrays.  The reference flattens them to 12582912 elements, the kernel's
program reshapes them to 98304 rows of 128 lanes and hands the rows out in 24 blocks of 4096 rows.  All
three are the row-major order, so a sum over the flat positions, over the (row, lane) pairs, or over the
(block, row in block, lane) triples of a function of the element is the sum over the elements.
-/

noncomputable section

namespace Cert.Spec

open Idealize.ShloMosaic

abbrev SFlat : Shape := ⟨1, ![12582912]⟩
abbrev SRows : Shape := ⟨2, ![98304, 128]⟩
abbrev SBlk : Shape := ⟨2, ![4096, 128]⟩

/-- The element at flat position `j`. -/
def unflat (j : SFlat.Idx) : SX.Idx :=
  ValueIdx.ix4
    (⟨((j 0).val) / 786432, by have h0 : (j 0).val < 12582912 := (j 0).isLt; omega⟩ : Fin 16)
    (⟨((j 0).val) / 262144 % 3, by omega⟩ : Fin 3)
    (⟨((j 0).val) / 512 % 512, by omega⟩ : Fin 512)
    (⟨((j 0).val) % 512, by omega⟩ : Fin 512)

/-- The element at row `q 0`, lane `q 1`: flat position `128 * row + lane`. -/
def unrow (q : SRows.Idx) : SX.Idx :=
  unflat (ValueIdx.ix1 (⟨(q 0).val * 128 + (q 1).val, by
    have h0 : (q 0).val < 98304 := (q 0).isLt; have h1 : (q 1).val < 128 := (q 1).isLt; omega⟩ : Fin 12582912))

/-- Row `j 0`, lane `j 1` of block `t`: row `4096 * t + j 0` of the row array. -/
def blockIdx (t : Fin 24) (j : SBlk.Idx) : SRows.Idx :=
  ValueIdx.ix2
    (⟨t.val * 4096 + (j 0).val, by have h0 : (j 0).val < 4096 := (j 0).isLt; have := t.isLt; omega⟩ : Fin 98304)
    (⟨(j 1).val, (j 1).isLt⟩ : Fin 128)

variable {M : Type} [AddCommMonoid M]

/-! ## The three row-major bijections -/

/-- The flat position of an element: `((x 0 * 3 + x 1) * 512 + x 2) * 512 + x 3`, written with the strides multiplied out. -/
def flatOf (x : SX.Idx) : SFlat.Idx :=
  ValueIdx.ix1 (⟨(x 0).val * 786432 + (x 1).val * 262144 + (x 2).val * 512 + (x 3).val, by
    have h0 : (x 0).val < 16 := (x 0).isLt
    have h1 : (x 1).val < 3 := (x 1).isLt
    have h2 : (x 2).val < 512 := (x 2).isLt
    have h3 : (x 3).val < 512 := (x 3).isLt
    omega⟩ : Fin 12582912)

/-- Flat positions and elements correspond one to one: the quotients and remainders of a position by the strides are the
    element's coordinates, and they rebuild the position. -/
def flatEquiv : SFlat.Idx ≃ SX.Idx where
  toFun := unflat
  invFun := flatOf
  left_inv j := by
    have h0 : (j 0).val < 12582912 := (j 0).isLt
    funext d
    match d with
    | ⟨0, _⟩ =>
      exact Fin.ext (show (j 0).val / 786432 * 786432 + (j 0).val / 262144 % 3 * 262144 + (j 0).val / 512 % 512 * 512
        + (j 0).val % 512 = (j 0).val by omega)
  right_inv x := by
    have h0 : (x 0).val < 16 := (x 0).isLt
    have h1 : (x 1).val < 3 := (x 1).isLt
    have h2 : (x 2).val < 512 := (x 2).isLt
    have h3 : (x 3).val < 512 := (x 3).isLt
    funext d
    match d with
    | ⟨0, _⟩ =>
      exact Fin.ext (show ((x 0).val * 786432 + (x 1).val * 262144 + (x 2).val * 512 + (x 3).val) / 786432
        = (x 0).val by omega)
    | ⟨1, _⟩ =>
      exact Fin.ext (show ((x 0).val * 786432 + (x 1).val * 262144 + (x 2).val * 512 + (x 3).val) / 262144 % 3
        = (x 1).val by omega)
    | ⟨2, _⟩ =>
      exact Fin.ext (show ((x 0).val * 786432 + (x 1).val * 262144 + (x 2).val * 512 + (x 3).val) / 512 % 512
        = (x 2).val by omega)
    | ⟨3, _⟩ =>
      exact Fin.ext (show ((x 0).val * 786432 + (x 1).val * 262144 + (x 2).val * 512 + (x 3).val) % 512
        = (x 3).val by omega)

/-- The flat position of row `q 0`, lane `q 1`. -/
def rowFlat (q : SRows.Idx) : SFlat.Idx :=
  ValueIdx.ix1 (⟨(q 0).val * 128 + (q 1).val, by
    have h0 : (q 0).val < 98304 := (q 0).isLt; have h1 : (q 1).val < 128 := (q 1).isLt; omega⟩ : Fin 12582912)

/-- (row, lane) pairs and flat positions correspond one to one: quotient and remainder by 128. -/
def rowEquiv : SRows.Idx ≃ SFlat.Idx where
  toFun := rowFlat
  invFun j := ValueIdx.ix2
    (⟨(j 0).val / 128, by have h0 : (j 0).val < 12582912 := (j 0).isLt; omega⟩ : Fin 98304)
    (⟨(j 0).val % 128, by omega⟩ : Fin 128)
  left_inv q := by
    have h0 : (q 0).val < 98304 := (q 0).isLt
    have h1 : (q 1).val < 128 := (q 1).isLt
    funext d
    match d with
    | ⟨0, _⟩ => exact Fin.ext (show ((q 0).val * 128 + (q 1).val) / 128 = (q 0).val by omega)
    | ⟨1, _⟩ => exact Fin.ext (show ((q 0).val * 128 + (q 1).val) % 128 = (q 1).val by omega)
  right_inv j := by
    have h0 : (j 0).val < 12582912 := (j 0).isLt
    funext d
    match d with
    | ⟨0, _⟩ => exact Fin.ext (show (j 0).val / 128 * 128 + (j 0).val % 128 = (j 0).val by omega)

/-- (block, row in block, lane) triples and (row, lane) pairs correspond one to one: quotient and remainder of the row
    by 4096. -/
def blockEquiv : Fin 24 × SBlk.Idx ≃ SRows.Idx where
  toFun p := blockIdx p.1 p.2
  invFun q :=
    ((⟨(q 0).val / 4096, by have h0 : (q 0).val < 98304 := (q 0).isLt; omega⟩ : Fin 24),
      ValueIdx.ix2 (⟨(q 0).val % 4096, by omega⟩ : Fin 4096) (⟨(q 1).val, (q 1).isLt⟩ : Fin 128))
  left_inv p := by
    obtain ⟨t, j⟩ := p
    have h0 : (j 0).val < 4096 := (j 0).isLt
    have ht : t.val < 24 := t.isLt
    refine Prod.ext ?_ ?_
    · exact Fin.ext (show (t.val * 4096 + (j 0).val) / 4096 = t.val by omega)
    · funext d
      match d with
      | ⟨0, _⟩ => exact Fin.ext (show (t.val * 4096 + (j 0).val) % 4096 = (j 0).val by omega)
      | ⟨1, _⟩ => rfl
  right_inv q := by
    have h0 : (q 0).val < 98304 := (q 0).isLt
    funext d
    match d with
    | ⟨0, _⟩ => exact Fin.ext (show (q 0).val / 4096 * 4096 + (q 0).val % 4096 = (q 0).val by omega)
    | ⟨1, _⟩ => rfl

/-! ## A weight distributes over a sum of non-negative extended reals -/

/-- For non-negative terms, `c * ∑ f = ∑ c * f` for every extended real `c`, infinite or negative ones included:
    all partial sums are non-negative, so no `∞ - ∞` arises. -/
theorem mul_sum_of_nonneg {ι : Type} (s : Finset ι) (c : EReal) (f : ι → EReal) (hf : ∀ i, 0 ≤ f i) :
    c * ∑ i ∈ s, f i = ∑ i ∈ s, c * f i := by
  classical
  induction s using Finset.induction_on with
  | empty => simp
  | insert i s hi ih =>
    rw [Finset.sum_insert hi, Finset.sum_insert hi,
      EReal.left_distrib_of_nonneg (hf i) (Finset.sum_nonneg (fun j _ => hf j)), ih]

/-- A hit is `0` or `1`, so non-negative. -/
theorem hit_nonneg (id : BitVec 32) (r : ℕ) : 0 ≤ hit id r := by
  unfold hit
  split
  · exact zero_le_one
  · exact le_rfl

/-- Summing over the flat positions is summing over the elements. -/
theorem sum_unflat (f : SX.Idx → M) : ∑ j : SFlat.Idx, f (unflat j) = ∑ x : SX.Idx, f x := by
  exact Equiv.sum_comp flatEquiv f

/-- Summing over the (row, lane) pairs is summing over the elements. -/
theorem sum_unrow (f : SX.Idx → M) : ∑ q : SRows.Idx, f (unrow q) = ∑ x : SX.Idx, f x := by
  rw [← sum_unflat f]
  exact Equiv.sum_comp rowEquiv (fun j => f (unflat j))

/-- Summing block by block is summing over the (row, lane) pairs. -/
theorem sum_blocks (g : SRows.Idx → M) : ∑ t : Fin 24, ∑ j : SBlk.Idx, g (blockIdx t j) = ∑ q : SRows.Idx, g q := by
  rw [← Fintype.sum_prod_type' (fun t j => g (blockIdx t j))]
  exact Equiv.sum_comp blockEquiv g

/-- The weighted sum of the region sums is the sum of the weighted losses: each element's loss is counted once,
    in its own region, when every region word is a region number below 116.  (The losses are non-negative, so a
    weight distributes over a region's sum even when it is infinite.) -/
theorem weighted_regions (a b : SX.Idx → EReal) (ids : SX.Idx → BitVec 32)
    (hin : ∀ x, 0 ≤ (ids x).toInt ∧ (ids x).toInt < 116) (w : SR.Idx → EReal) :
    ∑ r : SR.Idx, w r * regionSum a b ids r
      = ∑ x : SX.Idx, lossAt (a x) (b x) * w (ValueIdx.ix1 (⟨(ids x).toInt.toNat, by
          have := hin x; omega⟩ : Fin 116)) := by
  -- each weight goes inside its region's sum (the terms are non-negative), then the two sums are exchanged
  have hdist : ∀ r : SR.Idx, w r * regionSum a b ids r
      = ∑ x : SX.Idx, w r * (lossAt (a x) (b x) * hit (ids x) (r 0).val) := fun r =>
    mul_sum_of_nonneg Finset.univ (w r) (fun x => lossAt (a x) (b x) * hit (ids x) (r 0).val)
      (fun x => mul_nonneg (lossAt_nonneg (a x) (b x)) (hit_nonneg (ids x) (r 0).val))
  rw [Finset.sum_congr rfl (fun r _ => hdist r), Finset.sum_comm]
  refine Finset.sum_congr rfl (fun x _ => ?_)
  -- for a fixed element only its own region's term survives
  obtain ⟨hlo, hhi⟩ := hin x
  have hcast : (((ids x).toInt.toNat : ℕ) : ℤ) = (ids x).toInt := Int.toNat_of_nonneg hlo
  rw [Finset.sum_eq_single (ValueIdx.ix1 (⟨(ids x).toInt.toNat, by omega⟩ : Fin 116))]
  · have hhit : hit (ids x) (ids x).toInt.toNat = 1 := by
      unfold hit
      rw [if_pos hcast.symm]
    show w _ * (lossAt (a x) (b x) * hit (ids x) (ids x).toInt.toNat) = _
    rw [hhit, mul_one, mul_comm]
  · intro r _ hr
    have hne : ¬ (ids x).toInt = ((r 0).val : ℤ) := by
      intro he
      apply hr
      rw [ValueIdx.eq_ix1 r]
      congr 1
      exact Fin.ext (show (r 0).val = (ids x).toInt.toNat by omega)
    unfold hit
    rw [if_neg hne, mul_zero, mul_zero]
  · intro h
    exact absurd (Finset.mem_univ _) h

end Cert.Spec

end
-- ==== Proof.OutSpec.lean ====
import proofs.«430357_j57982058496540_3_alg».proof.Proof.SumReindex

/-!
# What the two output arrays of the region hold

The region's grid has 2 × 12 points; point `12 c + i` handles block `12 c + i` of the row arrays and adds its
per-region totals into row 0 of block `c` of the two [2, 8, 128] outputs.  So after the region, entry
`(c, 0, l)` of the sums output is, for a lane `l < 116`, the sum over the twelve blocks of core `c` of the
block's masked-loss total for region `l`; the counts output likewise with the block's count; rows 1 to 7
and lanes 116 to 127 hold zero.
-/

noncomputable section

namespace Cert.Spec

open Idealize.ShloMosaic

abbrev SOut : Shape := ⟨3, ![2, 8, 128]⟩

/-- Region `l`'s total loss over block `t` of the row arrays. -/
def blockSum (A B : SRows.Idx → EReal) (I : SRows.Idx → BitVec 32) (t : Fin 24) (l : ℕ) : EReal :=
  ∑ j : SBlk.Idx, lossAt (A (blockIdx t j)) (B (blockIdx t j)) * hit (I (blockIdx t j)) l

/-- Region `l`'s number of elements in block `t`. -/
def blockCnt (I : SRows.Idx → BitVec 32) (t : Fin 24) (l : ℕ) : EReal :=
  ∑ j : SBlk.Idx, hit (I (blockIdx t j)) l

/-- Block `i` of core `c`. -/
def coreBlock (c : Fin 2) (i : Fin 12) : Fin 24 := ⟨c.val * 12 + i.val, by omega⟩

/-- The sums output after the region. -/
def sumsOut (A B : SRows.Idx → EReal) (I : SRows.Idx → BitVec 32) : SOut.Idx → EReal := fun y =>
  if (y 1).val = 0 ∧ (y 2).val < 116 then ∑ i : Fin 12, blockSum A B I (coreBlock (y 0) i) (y 2).val else 0

/-- The counts output after the region. -/
def cntsOut (I : SRows.Idx → BitVec 32) : SOut.Idx → EReal := fun y =>
  if (y 1).val = 0 ∧ (y 2).val < 116 then ∑ i : Fin 12, blockCnt I (coreBlock (y 0) i) (y 2).val else 0

end Cert.Spec

end
-- ==== Proof.BlockRead.lean ====
import proofs.«430357_j57982058496540_3_alg».proof.Proof.Gen.KernelIdeal.Frame
import proofs.«430357_j57982058496540_3_alg».proof.Proof.SumReindex
import Idealize.ShloMosaic.Lib.Pipeline.Value

/-!
# A grid point's input blocks, read off the row arrays

Grid point `t` of the 2 × 12 grid is point `(t / 12, t % 12)`, and the three input windows' index map sends it
to block `12 (t / 12) + t % 12 = t` of the [98304, 128] row arrays: rows `4096 t` to `4096 t + 4095`, every
lane.  So entry `(a, b)` of the point's block is entry `(4096 t + a, b)` of the array.
-/

noncomputable section

namespace Cert.KernelIdeal.BlockRead

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The blocks of the three input windows at a point, at their literal types. -/
abbrev blk0 (c : Dev nD) (t : Fin cfg0.N) : Vec F S4096x128 .f32 := iblk m c 0 t
abbrev blk1 (c : Dev nD) (t : Fin cfg0.N) : Vec F S4096x128 .f32 := iblk m c 1 t
abbrev blk2 (c : Dev nD) (t : Fin cfg0.N) : Vec F S4096x128 .i32 := iblk m c 2 t

/-- A grid point as a block number. -/
def pt (t : Fin cfg0.N) : Fin 24 := ⟨t.val, lt_of_lt_of_eq t.isLt N_0⟩

/-- The three input index maps, decided over the grid: point `t` reads block `t`, lane block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Where entry `j` of point `t`'s block sits in the row array. -/
theorem emb0 (t : Fin cfg0.N) (j : S4096x128.Idx) :
    ((cfg0.win 0).blk t).view.emb j = Cert.Spec.blockIdx (pt t) j := by
  obtain ⟨e0, e1, -, -, -, -⟩ := idx_facts t
  funext a; apply Fin.ext
  match a with
  | ⟨0, _⟩ => show win0_0.index t (0 : Fin 2) * 4096 + 1 * (j 0).val = t.val * 4096 + (j 0).val; rw [e0]; omega
  | ⟨1, _⟩ => show win0_0.index t (1 : Fin 2) * 128 + 1 * (j 1).val = (j 1).val; rw [e1]; omega

theorem emb1 (t : Fin cfg0.N) (j : S4096x128.Idx) :
    ((cfg0.win 1).blk t).view.emb j = Cert.Spec.blockIdx (pt t) j := by
  obtain ⟨-, -, e0, e1, -, -⟩ := idx_facts t
  funext a; apply Fin.ext
  match a with
  | ⟨0, _⟩ => show win0_1.index t (0 : Fin 2) * 4096 + 1 * (j 0).val = t.val * 4096 + (j 0).val; rw [e0]; omega
  | ⟨1, _⟩ => show win0_1.index t (1 : Fin 2) * 128 + 1 * (j 1).val = (j 1).val; rw [e1]; omega

theorem emb2 (t : Fin cfg0.N) (j : S4096x128.Idx) :
    ((cfg0.win 2).blk t).view.emb j = Cert.Spec.blockIdx (pt t) j := by
  obtain ⟨-, -, -, -, e0, e1⟩ := idx_facts t
  funext a; apply Fin.ext
  match a with
  | ⟨0, _⟩ => show win0_2.index t (0 : Fin 2) * 4096 + 1 * (j 0).val = t.val * 4096 + (j 0).val; rw [e0]; omega
  | ⟨1, _⟩ => show win0_2.index t (1 : Fin 2) * 128 + 1 * (j 1).val = (j 1).val; rw [e1]; omega

/-- Entry `j` of point `t`'s block of the first row array is the array's entry at row `4096 t + j 0`, lane `j 1`. -/
theorem blk0_apply (c : Dev nD) (t : Fin cfg0.N) (j : S4096x128.Idx) :
    blk0 m c t j = (V m c main_v0 : S98304x128.Idx → Elt F .f32) (Cert.Spec.blockIdx (pt t) j) := by
  show (V m c main_v0 : S98304x128.Idx → Elt F .f32) (((cfg0.win 0).blk t).view.emb j) = _
  rw [emb0]

/-- The same for the second row array. -/
theorem blk1_apply (c : Dev nD) (t : Fin cfg0.N) (j : S4096x128.Idx) :
    blk1 m c t j = (V m c main_v1 : S98304x128.Idx → Elt F .f32) (Cert.Spec.blockIdx (pt t) j) := by
  show (V m c main_v1 : S98304x128.Idx → Elt F .f32) (((cfg0.win 1).blk t).view.emb j) = _
  rw [emb1]

/-- The same for the array of region words. -/
theorem blk2_apply (c : Dev nD) (t : Fin cfg0.N) (j : S4096x128.Idx) :
    blk2 m c t j = (V m c main_v2 : S98304x128.Idx → Elt F .i32) (Cert.Spec.blockIdx (pt t) j) := by
  show (V m c main_v2 : S98304x128.Idx → Elt F .i32) (((cfg0.win 2).blk t).view.emb j) = _
  rw [emb2]

end Cert.KernelIdeal.BlockRead

end
-- ==== Proof.OutCover.lean ====
import proofs.«430357_j57982058496540_3_alg».proof.Proof.Gen.KernelIdeal.Frame
import Idealize.ShloMosaic.Lib.ValueIdx
import Idealize.ShloMosaic.Lib.Pipeline.Value

/-!
# From the staging blocks to the output arrays

Each of the two [2, 8, 128] outputs is staged one [1, 8, 128] block a core: every point of core `b` works on block
`b`, and the block is written back to the array once, after the core's twelfth point (points 11 and 23).  The
two blocks cover the array.  So if at those two points the staging block holds block `b` of some array `G`,
the output array ends as `G`.
-/

noncomputable section

namespace Cert.KernelIdeal.OutCover

open Idealize.ShloMosaic Idealize.ShloMosaic.TcCoe Idealize.SL.Sem Cert.KernelIdeal Cert.KernelIdeal.Gen
open Idealize.ShloMosaic.Pipeline (Dat)

variable {F : FTy → Type} [FloatOps F]
variable (m : (ℓ : Loc nD τ sig) → Buf (Elt F) ℓ)

/-- The two output index maps, decided over the grid: point `t` works on block `t / 12`. -/
theorem idx_facts : ∀ t : Fin cfg0.N,
    win0_3.index t (0 : Fin 3) = t.val / 12 ∧ win0_3.index t (1 : Fin 3) = 0 ∧ win0_3.index t (2 : Fin 3) = 0
    ∧ win0_4.index t (0 : Fin 3) = t.val / 12 ∧ win0_4.index t (1 : Fin 3) = 0 ∧ win0_4.index t (2 : Fin 3) = 0 :=
  (by decide +kernel : ∀ t : Fin grid0.N, _)

/-- Entry `y` of a point's block of an output array, as an index of the array. -/
def outIdx (t : Fin cfg0.N) (y : S1x8x128.Idx) : S2x8x128.Idx :=
  ValueIdx.ix3 (⟨t.val / 12, by have := lt_of_lt_of_eq t.isLt N_0; omega⟩ : Fin 2)
    (⟨(y 1).val, (y 1).isLt⟩ : Fin 8) (⟨(y 2).val, (y 2).isLt⟩ : Fin 128)

theorem emb3 (t : Fin cfg0.N) (y : S1x8x128.Idx) : ((cfg0.win 3).blk t).view.emb y = outIdx t y := by
  obtain ⟨e0, e1, e2, -, -, -⟩ := idx_facts t
  have h0 : (y 0).val < 1 := (y 0).isLt
  funext a; apply Fin.ext
  match a with
  | ⟨0, _⟩ => show win0_3.index t (0 : Fin 3) * 1 + 1 * (y 0).val = t.val / 12; rw [e0]; omega
  | ⟨1, _⟩ => show win0_3.index t (1 : Fin 3) * 8 + 1 * (y 1).val = (y 1).val; rw [e1]; omega
  | ⟨2, _⟩ => show win0_3.index t (2 : Fin 3) * 128 + 1 * (y 2).val = (y 2).val; rw [e2]; omega

theorem emb4 (t : Fin cfg0.N) (y : S1x8x128.Idx) : ((cfg0.win 4).blk t).view.emb y = outIdx t y := by
  obtain ⟨-, -, -, e0, e1, e2⟩ := idx_facts t
  have h0 : (y 0).val < 1 := (y 0).isLt
  funext a; apply Fin.ext
  match a with
  | ⟨0, _⟩ => show win0_4.index t (0 : Fin 3) * 1 + 1 * (y 0).val = t.val / 12; rw [e0]; omega
  | ⟨1, _⟩ => show win0_4.index t (1 : Fin 3) * 8 + 1 * (y 1).val = (y 1).val; rw [e1]; omega
  | ⟨2, _⟩ => show win0_4.index t (2 : Fin 3) * 128 + 1 * (y 2).val = (y 2).val; rw [e2]; omega

/-- The point that writes back the block holding index `i`: the last point of core `i 0`. -/
def lastOf (i : S2x8x128.Idx) : Fin cfg0.N :=
  ⟨(i 0).val * 12 + 11, by have h : (i 0).val < 2 := (i 0).isLt; rw [show cfg0.N = 24 from N_0]; omega⟩

/-- If at each core's last point the sums block holds the core's block of `G`, the sums output ends as `G`. -/
theorem final3_of (c : Dev nD) (G : Buf (Elt F) ((c : Thread nD τ).loc main_v3_0))
    (hG : ∀ (t : Fin cfg0.N), t.val % 12 = 11 → ∀ y : S1x8x128.Idx,
      (outsAt0 m c t.val t.isLt).1 y = (G : S2x8x128.Idx → Elt F .f32) (outIdx t y)) :
    (dats m 0 c).arrAt 3 cfg0.N = G :=
  (dats m 0 c).arrAt_eq_of_cover 3 G
    (fun t hf => by
      have h11 := (flush0_3 t).mp hf
      show (cfg0.win 3).cut (grid0.coords t) ((dats m 0 c).after 3 t) = _
      rw [after0_3]
      funext y
      show (outsAt0 m c t.val t.isLt).1 y = (G : S2x8x128.Idx → Elt F .f32) (((cfg0.win 3).blk t).view.emb y)
      rw [emb3, hG t h11 y])
    (fun i => ⟨lastOf i, (flush0_3 (lastOf i)).mpr (by show ((i 0).val * 12 + 11) % 12 = 11; omega), by
      show i ∈ ((View.whole main_v3_0).slice (win0_3.rect (lastOf i))).set
      rw [View.set_slice_whole, Rect.mem_set_unit]
      obtain ⟨e0, e1, e2, -, -, -⟩ := idx_facts (lastOf i)
      have h0 : (i 0).val < 2 := (i 0).isLt
      have h1 : (i 1).val < 8 := (i 1).isLt
      have h2 : (i 2).val < 128 := (i 2).isLt
      have hl : (lastOf i).val = (i 0).val * 12 + 11 := rfl
      intro a
      match a with
      | ⟨0, _⟩ => show win0_3.index (lastOf i) (0 : Fin 3) * 1 ≤ (i 0).val ∧ (i 0).val < win0_3.index (lastOf i) (0 : Fin 3) * 1 + 1; rw [e0, hl]; omega
      | ⟨1, _⟩ => show win0_3.index (lastOf i) (1 : Fin 3) * 8 ≤ (i 1).val ∧ (i 1).val < win0_3.index (lastOf i) (1 : Fin 3) * 8 + 8; rw [e1]; omega
      | ⟨2, _⟩ => show win0_3.index (lastOf i) (2 : Fin 3) * 128 ≤ (i 2).val ∧ (i 2).val < win0_3.index (lastOf i) (2 : Fin 3) * 128 + 128; rw [e2]; omega⟩)

/-- The same for the counts output. -/
theorem final4_of (c : Dev nD) (G : Buf (Elt F) ((c : Thread nD τ).loc main_v3_1))
    (hG : ∀ (t : Fin cfg0.N), t.val % 12 = 11 → ∀ y : S1x8x128.Idx,
      (outsAt0 m c t.val t.isLt).2 y = (G : S2x8x128.Idx → Elt F .f32) (outIdx t y)) :
    (dats m 0 c).arrAt 4 cfg0.N = G :=
  (dats m 0 c).arrAt_eq_of_cover 4 G
    (fun t hf => by
      have h11 := (flush0_4 t).mp hf
      show (cfg0.win 4).cut (grid0.coords t) ((dats m 0 c).after 4 t) = _
      rw [after0_4]
      funext y
      show (outsAt0 m c t.val t.isLt).2 y = (G : S2x8x128.Idx → Elt F .f32) (((cfg0.win 4).blk t).view.emb y)
      rw [emb4, hG t h11 y])
    (fun i => ⟨lastOf i, (flush0_4 (lastOf i)).mpr (by show ((i 0).val * 12 + 11) % 12 = 11; omega), by
      show i ∈ ((View.whole main_v3_1).slice (win0_4.rect (lastOf i))).set
      rw [View.set_slice_whole, Rect.mem_set_unit]
      obtain ⟨-, -, -, e0, e1, e2⟩ := idx_facts (lastOf i)
      have h0 : (i 0).val < 2 := (i 0).isLt
      have h1 : (i 1).val < 8 := (i 1).isLt
      have h2 : (i 2).val < 128 := (i 2).isLt
      have hl : (lastOf i).val = (i 0).val * 12 + 11 := rfl
      intro a
      match a with
      | ⟨0, _⟩ => show win0_4.index (lastOf i) (0 : Fin 3) * 1 ≤ (i 0).val ∧ (i 0).val < win0_4.index (lastOf i) (0 : Fin 3) * 1 + 1; rw [e0, hl]; omega
      | ⟨1, _⟩ => show win0_4.index (lastOf i) (1 : Fin 3) * 8 ≤ (i 1).val ∧ (i 1).val < win0_4.index (lastOf i) (1 : Fin 3) * 8 + 8; rw [e1]; omega
      | ⟨2, _⟩ => show win0_4.index (lastOf i) (2 : Fin 3) * 128 ≤ (i 2).val ∧ (i 2).val < win0_4.index (lastOf i) (2 : Fin 3) * 128 + 128; rw [e2]; omega⟩)

end Cert.KernelIdeal.OutCover

end
-- ==== Proof.Accum.lean ====
import proofs.«430357_j57982058496540_3_alg».proof.Proof.BodyFold
import proofs.«430357_j57982058496540_3_alg».proof.Proof.BodyValue
import proofs.«430357_j57982058496540_3_alg».proof.Proof.OutSpec
import proofs.«430357_j57982058496540_3_alg».proof.Proof.BlockRead
import proofs.«430357_j57982058496540_3_alg».proof.Proof.OutCover
import Idealize.ShloMosaic.Lib.WritesUnit
import Idealize.ShloMosaic.Lib.Pipeline.Value

/-!
# The two outputs of the region, accumulated over the grid

At a core's first point the body zeroes its block of each output and adds the point's accumulator into row 0;
at the core's other eleven points it adds into row 0 of what the point before left.  By induction on the
point, after point `12 c + k` row 0 holds, lane by lane, the sum of the accumulators of blocks
`12 c, …, 12 c + k` and rows 1 to 7 hold zero.  The block is written back once, after the core's last point, so
the output arrays end as `Cert.Spec.sumsOut` and `Cert.Spec.cntsOut` say.
-/

noncomputable section

namespace Cert.KernelIdeal.Accum

open Idealize.ShloMosaic Idealize.ShloMosaic.TcCoe Idealize.SL.Sem Cert.KernelIdeal Cert.KernelIdeal.Gen
open Idealize.ShloMosaic.Pipeline (Dat)
open Cert.KernelIdeal.Body Cert.KernelIdeal.BlockRead

variable (m : (ℓ : Loc nD τ sig) → Buf (Elt Ideal) ℓ)

/-! ## One store into row 0, read at an index -/

/-- The row the body stores, at lane `l`: the old row's lane plus the accumulator's. -/
theorem rowStore_apply (old : Vec Ideal S1x1x128 .f32) (acc : FVec Ideal S1x128 .f32) (l : Fin 128) :
    rowStore (F := Ideal) old acc (ValueIdx.ix3 (0 : Fin 1) (0 : Fin 1) l)
      = (old (ValueIdx.ix3 (0 : Fin 1) (0 : Fin 1) l) : EReal) + (acc (ValueIdx.ix2 (0 : Fin 1) l) : EReal) := by
  unfold rowStore
  refine (shapeCast_addUnit_apply ![1, 128] _ _ _).trans ?_
  refine (ValueIdx.addf_apply _ _ _).trans ?_
  refine congrArg₂ (· + ·) ?_ ?_
  · refine (shapeCast_dropUnit_apply ![1, 128] old _ _).trans ?_
    refine congrArg old ?_
    funext a
    match a with
    | ⟨0, _⟩ => rfl
    | ⟨1, _⟩ => rfl
    | ⟨2, _⟩ => rfl
  · refine congrArg acc ?_
    funext a
    match a with
    | ⟨0, _⟩ => rfl
    | ⟨1, _⟩ => rfl

/-- Lane `l` of row 0 of the block, as a position of the row-0 rectangle, sits at (0, 0, l) of the block. -/
theorem row0_pos (p : Fin 8) (l : Fin 128) (hp : p.val = 0) :
    ∀ a : Fin 3, ((ValueIdx.ix3 (0 : Fin 1) p l : S1x8x128.Idx) a).val
      = (![0, 0, 0] : Fin 3 → ℕ) a + ((ValueIdx.ix3 (0 : Fin 1) (0 : Fin 1) l : S1x1x128.Idx) a).val := by
  intro a
  match a with
  | ⟨0, _⟩ => rfl
  | ⟨1, _⟩ => show p.val = 0 + 0; omega
  | ⟨2, _⟩ => show l.val = 0 + l.val; omega

/-- Row 0 stored last as (an old row plus the accumulator), over any earlier stores: at row 0 the old row's lane plus
    the accumulator's, elsewhere what the earlier stores left. -/
theorem readRow (v : View sig .tc .vmem S1x8x128 .f32) (f : v.ty.Contents (Elt Ideal)) (old : Vec Ideal S1x1x128 .f32)
    (acc : FVec Ideal S1x128 .f32) (L : List (View.Piece (Elt Ideal) S1x8x128 .f32)) (p : Fin 8) (l : Fin 128) :
    v.read (Elt Ideal) (v.writes (Elt Ideal) f (⟨row0, rowStore (F := Ideal) old acc⟩ :: L)) (ValueIdx.ix3 (0 : Fin 1) p l)
      = if p.val = 0 then (old (ValueIdx.ix3 (0 : Fin 1) (0 : Fin 1) l) : EReal) + (acc (ValueIdx.ix2 (0 : Fin 1) l) : EReal)
        else v.read (Elt Ideal) (v.writes (Elt Ideal) f L) (ValueIdx.ix3 (0 : Fin 1) p l) := by
  by_cases hp : p.val = 0
  · rw [if_pos hp]
    refine (View.read_writes_cons_unit_of_mem v f inb_S1x8x128_S1x1x128_0_0_0 (rowStore (F := Ideal) old acc) L
      (ValueIdx.ix3 (0 : Fin 1) p l) (ValueIdx.ix3 (0 : Fin 1) (0 : Fin 1) l) rfl (row0_pos p l hp)).trans ?_
    exact rowStore_apply old acc l
  · rw [if_neg hp]
    refine View.read_writes_cons_unit_of_not_mem v f inb_S1x8x128_S1x1x128_0_0_0 (rowStore (F := Ideal) old acc) L
      (ValueIdx.ix3 (0 : Fin 1) p l) rfl (1 : Fin 3) (Or.inr ?_)
    show 0 + 1 ≤ p.val
    omega

/-- Lane `l` of the row-0 rectangle is entry (0, p, l) of the block when `p = 0`. -/
theorem row0_idx (p : Fin 8) (l : Fin 128) (hp : p.val = 0) :
    row0.toLoadRect.idx (ValueIdx.ix3 (0 : Fin 1) (0 : Fin 1) l) = (ValueIdx.ix3 (0 : Fin 1) p l : S1x8x128.Idx) := by
  funext b
  apply Fin.ext
  match b with
  | ⟨0, _⟩ => rfl
  | ⟨1, _⟩ => show 0 + 1 * 0 = p.val; omega
  | ⟨2, _⟩ => show 0 + 1 * l.val = l.val; omega

/-- A block holding `xo` after the one store of row 0 (old row plus accumulator): row 0 gains the accumulator,
    the other rows keep what they held. -/
theorem readB (a : Memref sig .tc .vmem S1x8x128 .f32) (h : a.IsWhole) (xo : Vec Ideal S1x8x128 .f32)
    (acc : FVec Ideal S1x128 .f32) (p : Fin 8) (l : Fin 128) :
    a.view.read (Elt Ideal) (a.view.writes (Elt Ideal) (h.unread xo)
        [⟨row0, rowStore (F := Ideal) (View.readAt (Elt Ideal) a.view row0.toLoadRect (h.unread xo)) acc⟩])
      (ValueIdx.ix3 (0 : Fin 1) p l)
      = if p.val = 0 then (xo (ValueIdx.ix3 (0 : Fin 1) p l) : EReal) + (acc (ValueIdx.ix2 (0 : Fin 1) l) : EReal)
        else xo (ValueIdx.ix3 (0 : Fin 1) p l) := by
  refine (readRow a.view (h.unread xo) (View.readAt (Elt Ideal) a.view row0.toLoadRect (h.unread xo)) acc [] p l).trans ?_
  by_cases hp : p.val = 0
  · rw [if_pos hp, if_pos hp]
    refine congrArg (fun z : EReal => z + (acc (ValueIdx.ix2 (0 : Fin 1) l) : EReal)) ?_
    refine (congrFun (h.read_unread xo) _).trans ?_
    exact congrArg xo (row0_idx p l hp)
  · rw [if_neg hp, if_neg hp, View.writes_nil, h.read_unread]

/-- The one store that fills the whole block with `Z`. -/
abbrev zeroed (Z : FVec Ideal S1x8x128 .f32) : List (View.Piece (Elt Ideal) S1x8x128 .f32) := [⟨whole0, Z⟩]

/-- A block after one store of the whole block holds the stored block. -/
theorem readWhole (v : View sig .tc .vmem S1x8x128 .f32) (f : v.ty.Contents (Elt Ideal)) (Z : FVec Ideal S1x8x128 .f32)
    (y : S1x8x128.Idx) : v.read (Elt Ideal) (v.writes (Elt Ideal) f [⟨whole0, Z⟩]) y = Z y :=
  View.read_writes_cons_unit_of_mem v f inb_S1x8x128_S1x8x128_0_0_0 Z [] y y rfl fun a => by
    match a with
    | ⟨0, _⟩ => exact (Nat.zero_add _).symm
    | ⟨1, _⟩ => exact (Nat.zero_add _).symm
    | ⟨2, _⟩ => exact (Nat.zero_add _).symm

/-- Row 0 read back after the whole block was stored as `Z` is `Z`'s row 0. -/
theorem readBack (v' : View sig .tc .vmem S1x8x128 .f32) (Z : FVec Ideal S1x8x128 .f32) (p : Fin 8) (l : Fin 128)
    (hp : p.val = 0) :
    (View.readCov (Val := Elt Ideal) v' (zeroed Z) row0.toLoadRect (ValueIdx.ix3 (0 : Fin 1) (0 : Fin 1) l) : EReal)
      = Z (ValueIdx.ix3 (0 : Fin 1) p l) := by
  refine (readWhole v' v'.junk Z (row0.toLoadRect.idx (ValueIdx.ix3 (0 : Fin 1) (0 : Fin 1) l))).trans ?_
  exact congrArg Z (row0_idx p l hp)

/-- A block stored whole as `Z`, then row 0 stored as (the row read back) plus the accumulator: row 0 is `Z`'s row
    plus the accumulator, the other rows are `Z`'s. -/
theorem readA (v v' : View sig .tc .vmem S1x8x128 .f32) (Z : FVec Ideal S1x8x128 .f32)
    (acc : FVec Ideal S1x128 .f32) (p : Fin 8) (l : Fin 128) :
    v.read (Elt Ideal) (v.writes (Elt Ideal) v.junk
        (⟨row0, rowStore (F := Ideal) (View.readCov (Val := Elt Ideal) v' (zeroed Z) row0.toLoadRect) acc⟩ :: zeroed Z))
      (ValueIdx.ix3 (0 : Fin 1) p l)
      = if p.val = 0 then (Z (ValueIdx.ix3 (0 : Fin 1) p l) : EReal) + (acc (ValueIdx.ix2 (0 : Fin 1) l) : EReal)
        else Z (ValueIdx.ix3 (0 : Fin 1) p l) := by
  refine (readRow v v.junk (View.readCov (Val := Elt Ideal) v' (zeroed Z) row0.toLoadRect) acc (zeroed Z) p l).trans ?_
  by_cases hp : p.val = 0
  · rw [if_pos hp, if_pos hp]
    exact congrArg (fun z : EReal => z + (acc (ValueIdx.ix2 (0 : Fin 1) l) : EReal)) (readBack v' Z p l hp)
  · rw [if_neg hp, if_neg hp]
    exact readWhole v v.junk Z _

/-- The block the body zeroes an output with is zero everywhere. -/
theorem pay2_zero (y : S1x8x128.Idx) : (k0_pay2 (F := Ideal) y : EReal) = 0 := by
  show Ideal.ofBits .f32 0x00000000#32 = 0
  exact Ideal.ofBits_zero_f32
theorem pay3_zero (y : S1x8x128.Idx) : (k0_pay3 (F := Ideal) y : EReal) = 0 := by
  show Ideal.ofBits .f32 0x00000000#32 = 0
  exact Ideal.ofBits_zero_f32

theorem hz2 : (![0, 0] : Fin 2 → ℕ) = fun _ => 0 := funext fun a => by fin_cases a <;> rfl

/-- A whole input buffer read back is what it holds. -/
theorem ld_whole {φ : EltTy} (arg : Memref sig .tc .vmem S4096x128 φ) (h : arg.IsWhole) (x : Vec Ideal S4096x128 φ) :
    ld (F := Ideal) arg h x = x := by
  simp only [ld, View.readAt_eq_ld, h.read_unread, View.ld_unit_zero (S := S4096x128) hz2]

section point
variable (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .i32) (harg4 : arg4.IsWhole) (arg5 : Memref sig .tc .vmem S1x8x128 .f32) (harg5 : arg5.IsWhole) (arg6 : Memref sig .tc .vmem S1x8x128 .f32) (harg6 : arg6.IsWhole)

/-- Away from a core's first point the sums block's row 0 gains the point's accumulator. -/
theorem outB3 (hc0 : ¬cond0_0 i) (x0 x1 : Vec Ideal S4096x128 .f32) (x2 : Vec Ideal S4096x128 .i32) (xo3 xo4 : Vec Ideal S1x8x128 .f32) (p : Fin 8) (l : Fin 128) :
    out0_B_3 c i arg2 harg2 arg3 harg3 arg4 harg4 arg5 harg5 arg6 harg6 hc0 x0 x1 x2 xo3 xo4 (ValueIdx.ix3 (0 : Fin 1) p l)
      = if p.val = 0 then (xo3 (ValueIdx.ix3 (0 : Fin 1) p l) : EReal) + (accSum (F := Ideal) x0 x1 x2 (ValueIdx.ix2 (0 : Fin 1) l) : EReal)
        else xo3 (ValueIdx.ix3 (0 : Fin 1) p l) := by
  unfold out0_B_3
  rw [piecesB_3 c i arg2 harg2 arg3 harg3 arg4 harg4 arg5 harg5 arg6 harg6 x0 x1 x2 hc0 xo3 xo4, ld_whole arg2 harg2 x0, ld_whole arg3 harg3 x1, ld_whole arg4 harg4 x2]
  exact readB arg5 harg5 xo3 (accSum (F := Ideal) x0 x1 x2) p l

theorem outB4 (hc0 : ¬cond0_0 i) (x0 x1 : Vec Ideal S4096x128 .f32) (x2 : Vec Ideal S4096x128 .i32) (xo3 xo4 : Vec Ideal S1x8x128 .f32) (p : Fin 8) (l : Fin 128) :
    out0_B_4 c i arg2 harg2 arg3 harg3 arg4 harg4 arg5 harg5 arg6 harg6 hc0 x0 x1 x2 xo3 xo4 (ValueIdx.ix3 (0 : Fin 1) p l)
      = if p.val = 0 then (xo4 (ValueIdx.ix3 (0 : Fin 1) p l) : EReal) + (accCnt (F := Ideal) x2 (ValueIdx.ix2 (0 : Fin 1) l) : EReal)
        else xo4 (ValueIdx.ix3 (0 : Fin 1) p l) := by
  unfold out0_B_4
  rw [piecesB_4 c i arg2 harg2 arg3 harg3 arg4 harg4 arg5 harg5 arg6 harg6 x0 x1 x2 hc0 xo3 xo4, ld_whole arg4 harg4 x2]
  exact readB arg6 harg6 xo4 (accCnt (F := Ideal) x2) p l

/-- At a core's first point the sums block is zero but for row 0, which holds the point's accumulator. -/
theorem outA3 (hc0 : cond0_0 i) (x0 x1 : Vec Ideal S4096x128 .f32) (x2 : Vec Ideal S4096x128 .i32) (p : Fin 8) (l : Fin 128) :
    out0_A_3 c i arg2 harg2 arg3 harg3 arg4 harg4 arg5 harg5 arg6 harg6 hc0 x0 x1 x2 (ValueIdx.ix3 (0 : Fin 1) p l)
      = if p.val = 0 then (0 : EReal) + (accSum (F := Ideal) x0 x1 x2 (ValueIdx.ix2 (0 : Fin 1) l) : EReal) else 0 := by
  unfold out0_A_3
  rw [piecesA_3 c i arg2 harg2 arg3 harg3 arg4 harg4 arg5 harg5 arg6 harg6 x0 x1 x2 hc0, ld_whole arg2 harg2 x0, ld_whole arg3 harg3 x1, ld_whole arg4 harg4 x2]
  refine (readA VO0_3 arg5.view (k0_pay2 (F := Ideal)) (accSum (F := Ideal) x0 x1 x2) p l).trans ?_
  rw [pay2_zero]

theorem outA4 (hc0 : cond0_0 i) (x0 x1 : Vec Ideal S4096x128 .f32) (x2 : Vec Ideal S4096x128 .i32) (p : Fin 8) (l : Fin 128) :
    out0_A_4 c i arg2 harg2 arg3 harg3 arg4 harg4 arg5 harg5 arg6 harg6 hc0 x0 x1 x2 (ValueIdx.ix3 (0 : Fin 1) p l)
      = if p.val = 0 then (0 : EReal) + (accCnt (F := Ideal) x2 (ValueIdx.ix2 (0 : Fin 1) l) : EReal) else 0 := by
  unfold out0_A_4
  rw [piecesA_4 c i arg2 harg2 arg3 harg3 arg4 harg4 arg5 harg5 arg6 harg6 x0 x1 x2 hc0, ld_whole arg4 harg4 x2]
  refine (readA VO0_4 arg6.view (k0_pay3 (F := Ideal)) (accCnt (F := Ideal) x2) p l).trans ?_
  rw [pay3_zero]

end point

/-! ## The accumulation over the points -/

/-- Region `l`'s total loss over the block handled at point `n` (zero past the grid). -/
def ptSum (c : Dev nD) (n l : ℕ) : EReal :=
  if h : n < cfg0.N then
    ∑ j : S4096x128.Idx, Cert.Spec.lossAt (blk0 m c ⟨n, h⟩ j) (blk1 m c ⟨n, h⟩ j) * Cert.Spec.hit (blk2 m c ⟨n, h⟩ j) l
  else 0

/-- Region `l`'s number of elements in the block handled at point `n` (zero past the grid). -/
def ptCnt (c : Dev nD) (n l : ℕ) : EReal :=
  if h : n < cfg0.N then ∑ j : S4096x128.Idx, Cert.Spec.hit (blk2 m c ⟨n, h⟩ j) l else 0

theorem accSum_pt (c : Dev nD) (t : Fin cfg0.N) (l : Fin 128) :
    (accSum (F := Ideal) (blk0 m c t) (blk1 m c t) (blk2 m c t) (ValueIdx.ix2 (0 : Fin 1) l) : EReal)
      = if l.val < 116 then ptSum m c t.val l.val else 0 := by
  refine (accSum_apply (blk0 m c t) (blk1 m c t) (blk2 m c t) l).trans ?_
  unfold ptSum
  rw [dif_pos t.isLt]

theorem accCnt_pt (c : Dev nD) (t : Fin cfg0.N) (l : Fin 128) :
    (accCnt (F := Ideal) (blk2 m c t) (ValueIdx.ix2 (0 : Fin 1) l) : EReal)
      = if l.val < 116 then ptCnt m c t.val l.val else 0 := by
  refine (accCnt_apply (blk2 m c t) l).trans ?_
  unfold ptCnt
  rw [dif_pos t.isLt]

/-- A core's first point: zero plus the accumulator in row 0, zero elsewhere. -/
theorem stepA (p : Fin 8) (l : Fin 128) (S : EReal) :
    (if p.val = 0 then (0 : EReal) + (if l.val < 116 then S else 0) else 0)
      = if p.val = 0 ∧ l.val < 116 then S else 0 := by
  by_cases hp : p.val = 0 <;> by_cases hl : l.val < 116 <;> simp [hp, hl]

/-- A later point: row 0 gains the accumulator, the zeros stay. -/
theorem stepB (p : Fin 8) (l : Fin 128) (P S : EReal) :
    (if p.val = 0 then (if p.val = 0 ∧ l.val < 116 then P else 0) + (if l.val < 116 then S else 0)
      else (if p.val = 0 ∧ l.val < 116 then P else 0))
      = if p.val = 0 ∧ l.val < 116 then P + S else 0 := by
  by_cases hp : p.val = 0 <;> by_cases hl : l.val < 116 <;> simp [hp, hl]

theorem atA3 (c : Dev nD) (t : Fin cfg0.N) (h0 : t.val % 12 = 0) (p : Fin 8) (l : Fin 128) :
    ((outsAt0 m c t.val t.isLt).1 (ValueIdx.ix3 (0 : Fin 1) p l) : EReal)
      = if p.val = 0 ∧ l.val < 116 then ptSum m c t.val l.val else 0 := by
  rw [outsAt0_A m c t h0]
  dsimp only
  refine (outA3 c (grid0.coords t) (ms0_0 t) (hs0_0 t) (ms0_1 t) (hs0_1 t) (ms0_2 t) (hs0_2 t) (ms0_3 t) (hs0_3 t) (ms0_4 t) (hs0_4 t) ((hcond0_0 t).mpr h0) (blk0 m c t) (blk1 m c t) (blk2 m c t) p l).trans ?_
  rw [accSum_pt m c t l, stepA]

theorem atB3 (c : Dev nD) (t : Fin cfg0.N) (h0 : ¬t.val % 12 = 0) (p : Fin 8) (l : Fin 128) :
    ((outsAt0 m c t.val t.isLt).1 (ValueIdx.ix3 (0 : Fin 1) p l) : EReal)
      = if p.val = 0 then
          ((outsAt0 m c (t.val - 1) (Nat.lt_of_le_of_lt (Nat.sub_le _ _) t.isLt)).1 (ValueIdx.ix3 (0 : Fin 1) p l) : EReal)
            + (if l.val < 116 then ptSum m c t.val l.val else 0)
        else (outsAt0 m c (t.val - 1) (Nat.lt_of_le_of_lt (Nat.sub_le _ _) t.isLt)).1 (ValueIdx.ix3 (0 : Fin 1) p l) := by
  rw [outsAt0_B m c t h0]
  dsimp only
  refine (outB3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blk0 m c t) (blk1 m c t) (blk2 m c t)
    (outsAt0 m c (t.val - 1) (Nat.lt_of_le_of_lt (Nat.sub_le _ _) t.isLt)).1
    (outsAt0 m c (t.val - 1) (Nat.lt_of_le_of_lt (Nat.sub_le _ _) t.isLt)).2 p l).trans ?_
  rw [accSum_pt m c t l]

/-- After point `12 b + k` row 0 holds, lane by lane, the totals of blocks `12 b, …, 12 b + k`; the other rows and
    the lanes from 116 on hold zero. -/
theorem inv3 (c : Dev nD) (b : ℕ) : ∀ (k : ℕ) (hk : k < 12) (h : b * 12 + k < cfg0.N) (p : Fin 8) (l : Fin 128),
    ((outsAt0 m c (b * 12 + k) h).1 (ValueIdx.ix3 (0 : Fin 1) p l) : EReal)
      = if p.val = 0 ∧ l.val < 116 then ∑ i ∈ Finset.range (k + 1), ptSum m c (b * 12 + i) l.val else 0
  | 0, hk, h, p, l => by
    have h0 : (b * 12 + 0) % 12 = 0 := by omega
    refine (atA3 m c ⟨b * 12 + 0, h⟩ h0 p l).trans ?_
    rw [Finset.sum_range_succ, Finset.sum_range_zero, zero_add]
  | k + 1, hk, h, p, l => by
    have h0 : ¬(b * 12 + (k + 1)) % 12 = 0 := by omega
    have hprev : b * 12 + k < cfg0.N := Nat.lt_of_succ_lt h
    have ih := inv3 c b k (by omega) hprev p l
    refine (atB3 m c ⟨b * 12 + (k + 1), h⟩ h0 p l).trans ?_
    show (if p.val = 0 then
        ((outsAt0 m c (b * 12 + k) hprev).1 (ValueIdx.ix3 (0 : Fin 1) p l) : EReal)
          + (if l.val < 116 then ptSum m c (b * 12 + (k + 1)) l.val else 0)
      else (outsAt0 m c (b * 12 + k) hprev).1 (ValueIdx.ix3 (0 : Fin 1) p l)) = _
    rw [ih, stepB, Finset.sum_range_succ (fun i => ptSum m c (b * 12 + i) l.val) (k + 1)]

theorem atA4 (c : Dev nD) (t : Fin cfg0.N) (h0 : t.val % 12 = 0) (p : Fin 8) (l : Fin 128) :
    ((outsAt0 m c t.val t.isLt).2 (ValueIdx.ix3 (0 : Fin 1) p l) : EReal)
      = if p.val = 0 ∧ l.val < 116 then ptCnt m c t.val l.val else 0 := by
  rw [outsAt0_A m c t h0]
  dsimp only
  refine (outA4 c (grid0.coords t) (ms0_0 t) (hs0_0 t) (ms0_1 t) (hs0_1 t) (ms0_2 t) (hs0_2 t) (ms0_3 t) (hs0_3 t) (ms0_4 t) (hs0_4 t) ((hcond0_0 t).mpr h0) (blk0 m c t) (blk1 m c t) (blk2 m c t) p l).trans ?_
  rw [accCnt_pt m c t l, stepA]

theorem atB4 (c : Dev nD) (t : Fin cfg0.N) (h0 : ¬t.val % 12 = 0) (p : Fin 8) (l : Fin 128) :
    ((outsAt0 m c t.val t.isLt).2 (ValueIdx.ix3 (0 : Fin 1) p l) : EReal)
      = if p.val = 0 then
          ((outsAt0 m c (t.val - 1) (Nat.lt_of_le_of_lt (Nat.sub_le _ _) t.isLt)).2 (ValueIdx.ix3 (0 : Fin 1) p l) : EReal)
            + (if l.val < 116 then ptCnt m c t.val l.val else 0)
        else (outsAt0 m c (t.val - 1) (Nat.lt_of_le_of_lt (Nat.sub_le _ _) t.isLt)).2 (ValueIdx.ix3 (0 : Fin 1) p l) := by
  rw [outsAt0_B m c t h0]
  dsimp only
  refine (outB4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blk0 m c t) (blk1 m c t) (blk2 m c t)
    (outsAt0 m c (t.val - 1) (Nat.lt_of_le_of_lt (Nat.sub_le _ _) t.isLt)).1
    (outsAt0 m c (t.val - 1) (Nat.lt_of_le_of_lt (Nat.sub_le _ _) t.isLt)).2 p l).trans ?_
  rw [accCnt_pt m c t l]

/-- After point `12 b + k` row 0 holds, lane by lane, the totals of blocks `12 b, …, 12 b + k`; the other rows and
    the lanes from 116 on hold zero. -/
theorem inv4 (c : Dev nD) (b : ℕ) : ∀ (k : ℕ) (hk : k < 12) (h : b * 12 + k < cfg0.N) (p : Fin 8) (l : Fin 128),
    ((outsAt0 m c (b * 12 + k) h).2 (ValueIdx.ix3 (0 : Fin 1) p l) : EReal)
      = if p.val = 0 ∧ l.val < 116 then ∑ i ∈ Finset.range (k + 1), ptCnt m c (b * 12 + i) l.val else 0
  | 0, hk, h, p, l => by
    have h0 : (b * 12 + 0) % 12 = 0 := by omega
    refine (atA4 m c ⟨b * 12 + 0, h⟩ h0 p l).trans ?_
    rw [Finset.sum_range_succ, Finset.sum_range_zero, zero_add]
  | k + 1, hk, h, p, l => by
    have h0 : ¬(b * 12 + (k + 1)) % 12 = 0 := by omega
    have hprev : b * 12 + k < cfg0.N := Nat.lt_of_succ_lt h
    have ih := inv4 c b k (by omega) hprev p l
    refine (atB4 m c ⟨b * 12 + (k + 1), h⟩ h0 p l).trans ?_
    show (if p.val = 0 then
        ((outsAt0 m c (b * 12 + k) hprev).2 (ValueIdx.ix3 (0 : Fin 1) p l) : EReal)
          + (if l.val < 116 then ptCnt m c (b * 12 + (k + 1)) l.val else 0)
      else (outsAt0 m c (b * 12 + k) hprev).2 (ValueIdx.ix3 (0 : Fin 1) p l)) = _
    rw [ih, stepB, Finset.sum_range_succ (fun i => ptCnt m c (b * 12 + i) l.val) (k + 1)]

/-! ## The outputs after the region -/

theorem outsAt0_congr (c : Dev nD) {n n' : ℕ} (e : n = n') (h : n < cfg0.N) (h' : n' < cfg0.N) :
    outsAt0 m c n h = outsAt0 m c n' h' := by
  subst e
  rfl

/-- The total of the block handled at point `n` is the total of block `n` of the row arrays. -/
theorem ptSum_eq (c : Dev nD) (n : ℕ) (h : n < 24) (l : ℕ) :
    ptSum m c n l = Cert.Spec.blockSum (V m c main_v0) (V m c main_v1) (V m c main_v2) ⟨n, h⟩ l := by
  have hN : n < cfg0.N := lt_of_lt_of_eq h N_0.symm
  unfold ptSum Cert.Spec.blockSum
  rw [dif_pos hN]
  refine Finset.sum_congr rfl fun j _ => ?_
  rw [blk0_apply m c ⟨n, hN⟩ j, blk1_apply m c ⟨n, hN⟩ j, blk2_apply m c ⟨n, hN⟩ j]
  rfl

theorem ptCnt_eq (c : Dev nD) (n : ℕ) (h : n < 24) (l : ℕ) :
    ptCnt m c n l = Cert.Spec.blockCnt (V m c main_v2) ⟨n, h⟩ l := by
  have hN : n < cfg0.N := lt_of_lt_of_eq h N_0.symm
  unfold ptCnt Cert.Spec.blockCnt
  rw [dif_pos hN]
  refine Finset.sum_congr rfl fun j _ => ?_
  rw [blk2_apply m c ⟨n, hN⟩ j]
  rfl

/-- An index of a block whose leading axis has one entry. -/
theorem eq_ix3_zero (y : S1x8x128.Idx) :
    y = ValueIdx.ix3 (0 : Fin 1) (⟨(y 1).val, (y 1).isLt⟩ : Fin 8) (⟨(y 2).val, (y 2).isLt⟩ : Fin 128) := by
  have hy0 : (y 0).val < 1 := (y 0).isLt
  funext a
  apply Fin.ext
  match a with
  | ⟨0, _⟩ => show (y 0).val = 0; omega
  | ⟨1, _⟩ => rfl
  | ⟨2, _⟩ => rfl

/-- The sums output ends holding the per-core, per-region totals. -/
theorem final3 (c : Dev nD) :
    (dats m 0 c).arrAt 3 cfg0.N
      = (Cert.Spec.sumsOut (V m c main_v0) (V m c main_v1) (V m c main_v2) : Buf (Elt Ideal) ((c : Thread nD τ).loc main_v3_0)) := by
  refine OutCover.final3_of m c _ fun t h11 y => ?_
  have hN : t.val < 24 := lt_of_lt_of_eq t.isLt N_0
  have e : t.val = t.val / 12 * 12 + 11 := by omega
  have h' : t.val / 12 * 12 + 11 < cfg0.N := lt_of_eq_of_lt e.symm t.isLt
  refine (congrArg (outsAt0 m c t.val t.isLt).1 (eq_ix3_zero y)).trans ?_
  rw [outsAt0_congr m c e t.isLt h']
  refine (inv3 m c (t.val / 12) 11 (by omega) h' _ _).trans ?_
  show (if (y 1).val = 0 ∧ (y 2).val < 116 then ∑ i ∈ Finset.range 12, ptSum m c (t.val / 12 * 12 + i) (y 2).val else 0)
    = if (y 1).val = 0 ∧ (y 2).val < 116 then
        ∑ i : Fin 12, Cert.Spec.blockSum (V m c main_v0) (V m c main_v1) (V m c main_v2)
          (Cert.Spec.coreBlock (OutCover.outIdx t y 0) i) (y 2).val
      else 0
  refine if_congr Iff.rfl ?_ rfl
  rw [Finset.sum_range]
  refine Finset.sum_congr rfl fun i _ => ?_
  have hi : i.val < 12 := i.isLt
  exact ptSum_eq m c (t.val / 12 * 12 + i.val) (by omega) (y 2).val

/-- The counts output ends holding the per-core, per-region counts. -/
theorem final4 (c : Dev nD) :
    (dats m 0 c).arrAt 4 cfg0.N
      = (Cert.Spec.cntsOut (V m c main_v2) : Buf (Elt Ideal) ((c : Thread nD τ).loc main_v3_1)) := by
  refine OutCover.final4_of m c _ fun t h11 y => ?_
  have hN : t.val < 24 := lt_of_lt_of_eq t.isLt N_0
  have e : t.val = t.val / 12 * 12 + 11 := by omega
  have h' : t.val / 12 * 12 + 11 < cfg0.N := lt_of_eq_of_lt e.symm t.isLt
  refine (congrArg (outsAt0 m c t.val t.isLt).2 (eq_ix3_zero y)).trans ?_
  rw [outsAt0_congr m c e t.isLt h']
  refine (inv4 m c (t.val / 12) 11 (by omega) h' _ _).trans ?_
  show (if (y 1).val = 0 ∧ (y 2).val < 116 then ∑ i ∈ Finset.range 12, ptCnt m c (t.val / 12 * 12 + i) (y 2).val else 0)
    = if (y 1).val = 0 ∧ (y 2).val < 116 then
        ∑ i : Fin 12, Cert.Spec.blockCnt (V m c main_v2) (Cert.Spec.coreBlock (OutCover.outIdx t y 0) i) (y 2).val
      else 0
  refine if_congr Iff.rfl ?_ rfl
  rw [Finset.sum_range]
  refine Finset.sum_congr rfl fun i _ => ?_
  have hi : i.val < 12 := i.isLt
  exact ptCnt_eq m c (t.val / 12 * 12 + i.val) (by omega) (y 2).val

end Cert.KernelIdeal.Accum

end
-- ==== Proof.KernelTail.lean ====
import proofs.«430357_j57982058496540_3_alg».proof.Proof.Accum
import proofs.«430357_j57982058496540_3_alg».proof.Proof.SumReindex
import Idealize.ShloMosaic.Lib.StableHlo.Run
import Idealize.ShloMosaic.Lib.Pipeline.Value
import Idealize.ShloMosaic.PureOps.Ideal.Laws

/-!
# The kernel's program, read to its result

Before the region the program reshapes the three inputs to rows of 128 lanes; after it, it sums each output
over its core and row axes, keeps lanes 0 to 115 — the region sums and counts — and from those forms the
weights, the weighted sum and its quotient by the number of elements.  Summed over the two cores and twelve
blocks a core, the blocks' totals are the totals over all elements, so the program's result is
`Cert.Spec.result` of the three inputs.
-/

noncomputable section

namespace Cert.KernelIdeal.KValue

open Idealize.ShloMosaic Idealize.ShloMosaic.TcCoe Idealize.SL.Sem Cert.KernelIdeal Cert.KernelIdeal.Gen
open Idealize.ShloMosaic.Pipeline (Dat)

section Helpers

open scoped BigOperators

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- So a sum over it is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Lane `r` of a [2, 8, 128] array summed from zero over its first two axes and cut to its first 116 lanes: the sum
    over the two leading coordinates of the entries of lane `r`. -/
theorem lanes_apply (out : Cert.Spec.SOut.Idx → EReal) (r : Cert.Spec.SR.Idx) :
    extractStridedSlice S116 ![0]
        (Host.reduceAdd (F := Ideal) (out : FVec Ideal S2x8x128 .f32) (constant (F := Ideal) S_ .f32 0x00000000#32)
          reducesTo_S2x8x128_S128_d0_1 h_S_)
        slices_S128_S116_0 r
      = ∑ a : Fin 2, ∑ b : Fin 8, out (ValueIdx.ix3 a b (⟨(r 0).val, by have h : (r 0).val < 116 := (r 0).isLt; omega⟩ : Fin 128)) := by
  have hr : (r 0).val < 116 := (r 0).isLt
  have hl : (r 0).val < 128 := by omega
  rw [extractStridedSlice_apply ![0] _ slices_S128_S116_0 r (ValueIdx.ix1 (⟨(r 0).val, hl⟩ : Fin 128)) (fun a => by
      match a with
      | ⟨0, _⟩ => show (r 0).val = 0 + (r 0).val; omega)]
  show Ideal.hostReduceAdd reducesTo_S2x8x128_S128_d0_1 out (Ideal.ofBits .f32 0x00000000#32) _ = _
  unfold Ideal.hostReduceAdd
  rw [Ideal.ofBits_zero_f32, zero_add, Finset.sum_filter, sum_idx3]
  refine Finset.sum_congr rfl fun a _ => Finset.sum_congr rfl fun b _ => ?_
  have hdrop : ∀ l : Fin 128, (reducesTo_S2x8x128_S128_d0_1.drop (ValueIdx.ix3 a b l) = ValueIdx.ix1 (⟨(r 0).val, hl⟩ : Fin 128)) ↔ l = ⟨(r 0).val, hl⟩ := by
    intro l
    have hv : (reducesTo_S2x8x128_S128_d0_1.drop (ValueIdx.ix3 a b l) 0 : ℕ) = l.val :=
      Shape.ReducesTo.drop_apply_val_of_eq reducesTo_S2x8x128_S128_d0_1 (ValueIdx.ix3 a b l) 0 2
    constructor
    · intro he
      have h0 := congrArg (fun j : S128.Idx => (j 0 : ℕ)) he
      exact Fin.ext (hv.symm.trans h0)
    · intro he
      funext d
      match d with
      | ⟨0, _⟩ => exact Fin.ext (hv.trans (congrArg Fin.val he))
  rw [Finset.sum_eq_single (⟨(r 0).val, hl⟩ : Fin 128)]
  · rw [if_pos ((hdrop _).mpr rfl)]
  · intro l _ hne
    rw [if_neg (fun he => hne ((hdrop l).mp he))]
  · intro h
    exact absurd (Finset.mem_univ _) h

/-! ## The row arrays -/

/-- Row `q 0`, lane `q 1` of an input reshaped to rows of 128 lanes is the element at flat position `128 * row + lane`. -/
theorem shapeCast_unrow {α : Type} (x : Cert.Spec.SX.Idx → α) (q : Cert.Spec.SRows.Idx) :
    shapeCast S98304x128 x shapeCasts_S16x3x512x512_S98304x128 q = x (Cert.Spec.unrow q) :=
  shapeCast_apply x shapeCasts_S16x3x512x512_S98304x128 q (Cert.Spec.unrow q) (by
    rw [Shape.rowMajor_val_four, Shape.rowMajor_val_two]
    have h0 : (q 0).val < 98304 := (q 0).isLt
    have h1 : (q 1).val < 128 := (q 1).isLt
    show ((((q 0).val * 128 + (q 1).val) / 786432 * 3 + ((q 0).val * 128 + (q 1).val) / 262144 % 3) * 512
        + ((q 0).val * 128 + (q 1).val) / 512 % 512) * 512 + ((q 0).val * 128 + (q 1).val) % 512
      = (q 0).val * 128 + (q 1).val
    omega)

variable (m : (ℓ : Loc nD τ sig) → Buf (Elt Ideal) ℓ)

/-- The first row array, as the region finds it, is the first input reshaped. -/
theorem rows0 (c : Dev nD) (q : Cert.Spec.SRows.Idx) :
    (V m c main_v0 : Cert.Spec.SRows.Idx → EReal) q
      = (m ((c.tc : Thread nD τ).loc main_arg0) : Cert.Spec.SX.Idx → EReal) (Cert.Spec.unrow q) := by
  have e : (V m c main_v0 : Cert.Spec.SRows.Idx → EReal)
      = shapeCast S98304x128 (m ((c.tc : Thread nD τ).loc main_arg0) : Cert.Spec.SX.Idx → EReal) shapeCasts_S16x3x512x512_S98304x128 := by
    dsimp only [Gen.V, Gen.V0]
    simp only [Gen.hostOps0, List.flatten_cons, List.flatten_nil, List.append_nil, List.cons_append, List.nil_append]
    after_results
    rfl
  rw [e]
  exact shapeCast_unrow _ q

/-- The second row array is the second input reshaped. -/
theorem rows1 (c : Dev nD) (q : Cert.Spec.SRows.Idx) :
    (V m c main_v1 : Cert.Spec.SRows.Idx → EReal) q
      = (m ((c.tc : Thread nD τ).loc main_arg1) : Cert.Spec.SX.Idx → EReal) (Cert.Spec.unrow q) := by
  have e : (V m c main_v1 : Cert.Spec.SRows.Idx → EReal)
      = shapeCast S98304x128 (m ((c.tc : Thread nD τ).loc main_arg1) : Cert.Spec.SX.Idx → EReal) shapeCasts_S16x3x512x512_S98304x128 := by
    dsimp only [Gen.V, Gen.V0]
    simp only [Gen.hostOps0, List.flatten_cons, List.flatten_nil, List.append_nil, List.cons_append, List.nil_append]
    after_results
    rfl
  rw [e]
  exact shapeCast_unrow _ q

/-- The third row array is the region words reshaped. -/
theorem rows2 (c : Dev nD) (q : Cert.Spec.SRows.Idx) :
    (V m c main_v2 : Cert.Spec.SRows.Idx → BitVec 32) q
      = (m ((c.tc : Thread nD τ).loc main_arg2) : Cert.Spec.SX.Idx → BitVec 32) (Cert.Spec.unrow q) := by
  have e : (V m c main_v2 : Cert.Spec.SRows.Idx → BitVec 32)
      = shapeCast S98304x128 (m ((c.tc : Thread nD τ).loc main_arg2) : Cert.Spec.SX.Idx → BitVec 32) shapeCasts_S16x3x512x512_S98304x128 := by
    dsimp only [Gen.V, Gen.V0]
    simp only [Gen.hostOps0, List.flatten_cons, List.flatten_nil, List.append_nil, List.cons_append, List.nil_append]
    after_results
    rfl
  rw [e]
  exact shapeCast_unrow _ q

/-! ## Cores and blocks -/

/-- (core, block of the core) pairs and blocks correspond one to one: quotient and remainder by 12. -/
def coreEquiv : Fin 2 × Fin 12 ≃ Fin 24 where
  toFun p := Cert.Spec.coreBlock p.1 p.2
  invFun t := ((⟨t.val / 12, by have := t.isLt; omega⟩ : Fin 2), (⟨t.val % 12, by omega⟩ : Fin 12))
  left_inv p := by
    obtain ⟨a, i⟩ := p
    have ha : a.val < 2 := a.isLt
    have hi : i.val < 12 := i.isLt
    refine Prod.ext (Fin.ext ?_) (Fin.ext ?_)
    · show (a.val * 12 + i.val) / 12 = a.val
      omega
    · show (a.val * 12 + i.val) % 12 = i.val
      omega
  right_inv t := Fin.ext (by
    show t.val / 12 * 12 + t.val % 12 = t.val
    omega)

/-- Summing core by core over a core's twelve blocks is summing over the 24 blocks. -/
theorem sum_cores {M : Type} [AddCommMonoid M] (g : Fin 24 → M) :
    ∑ a : Fin 2, ∑ i : Fin 12, g (Cert.Spec.coreBlock a i) = ∑ t : Fin 24, g t := by
  rw [← Fintype.sum_prod_type' (fun a i => g (Cert.Spec.coreBlock a i))]
  exact Equiv.sum_comp coreEquiv g

/-! ## The region sums and counts -/

/-- Lane `r` of the sums output, summed over cores and rows: only row 0 is non-zero and holds the core's twelve block
    totals, so the sum is the total over all rows of the row arrays. -/
theorem lanes_sums (A B : Cert.Spec.SRows.Idx → EReal) (I : Cert.Spec.SRows.Idx → BitVec 32) (r : Cert.Spec.SR.Idx)
    (hl : (r 0).val < 128) :
    ∑ a : Fin 2, ∑ b : Fin 8, Cert.Spec.sumsOut A B I (ValueIdx.ix3 a b (⟨(r 0).val, hl⟩ : Fin 128))
      = ∑ q : Cert.Spec.SRows.Idx, Cert.Spec.lossAt (A q) (B q) * Cert.Spec.hit (I q) (r 0).val := by
  have hr : (r 0).val < 116 := (r 0).isLt
  have hrow : ∀ a : Fin 2, ∑ b : Fin 8, Cert.Spec.sumsOut A B I (ValueIdx.ix3 a b (⟨(r 0).val, hl⟩ : Fin 128))
      = ∑ i : Fin 12, Cert.Spec.blockSum A B I (Cert.Spec.coreBlock a i) (r 0).val := by
    intro a
    rw [Finset.sum_eq_single (0 : Fin 8)]
    · exact if_pos ⟨rfl, hr⟩
    · intro b _ hb
      exact if_neg (fun h => hb (Fin.ext h.1))
    · intro h
      exact absurd (Finset.mem_univ _) h
  rw [Finset.sum_congr rfl (fun a _ => hrow a), sum_cores (fun t => Cert.Spec.blockSum A B I t (r 0).val)]
  exact Cert.Spec.sum_blocks (fun q => Cert.Spec.lossAt (A q) (B q) * Cert.Spec.hit (I q) (r 0).val)

/-- The same for the counts output. -/
theorem lanes_cnts (I : Cert.Spec.SRows.Idx → BitVec 32) (r : Cert.Spec.SR.Idx) (hl : (r 0).val < 128) :
    ∑ a : Fin 2, ∑ b : Fin 8, Cert.Spec.cntsOut I (ValueIdx.ix3 a b (⟨(r 0).val, hl⟩ : Fin 128))
      = ∑ q : Cert.Spec.SRows.Idx, Cert.Spec.hit (I q) (r 0).val := by
  have hr : (r 0).val < 116 := (r 0).isLt
  have hrow : ∀ a : Fin 2, ∑ b : Fin 8, Cert.Spec.cntsOut I (ValueIdx.ix3 a b (⟨(r 0).val, hl⟩ : Fin 128))
      = ∑ i : Fin 12, Cert.Spec.blockCnt I (Cert.Spec.coreBlock a i) (r 0).val := by
    intro a
    rw [Finset.sum_eq_single (0 : Fin 8)]
    · exact if_pos ⟨rfl, hr⟩
    · intro b _ hb
      exact if_neg (fun h => hb (Fin.ext h.1))
    · intro h
      exact absurd (Finset.mem_univ _) h
  rw [Finset.sum_congr rfl (fun a _ => hrow a), sum_cores (fun t => Cert.Spec.blockCnt I t (r 0).val)]
  exact Cert.Spec.sum_blocks (fun q => Cert.Spec.hit (I q) (r 0).val)

/-- The program's region sums: the sums output summed over its core and row axes from zero and cut to 116 lanes is the
    region sums of the inputs, when the row arrays are the inputs read row by row. -/
theorem sums_read (A B : Cert.Spec.SRows.Idx → EReal) (I : Cert.Spec.SRows.Idx → BitVec 32)
    (a b : Cert.Spec.SX.Idx → EReal) (ids : Cert.Spec.SX.Idx → BitVec 32)
    (hA : ∀ q, A q = a (Cert.Spec.unrow q)) (hB : ∀ q, B q = b (Cert.Spec.unrow q)) (hI : ∀ q, I q = ids (Cert.Spec.unrow q)) :
    extractStridedSlice S116 ![0]
        (Host.reduceAdd (F := Ideal) (Cert.Spec.sumsOut A B I : FVec Ideal S2x8x128 .f32) (constant (F := Ideal) S_ .f32 0x00000000#32)
          reducesTo_S2x8x128_S128_d0_1 h_S_)
        slices_S128_S116_0
      = Cert.Spec.regionSum a b ids := by
  funext r
  rw [lanes_apply, lanes_sums]
  show _ = ∑ x : Cert.Spec.SX.Idx, Cert.Spec.lossAt (a x) (b x) * Cert.Spec.hit (ids x) (r 0).val
  refine Eq.trans (Finset.sum_congr rfl fun q _ => ?_)
    (Cert.Spec.sum_unrow (fun x => Cert.Spec.lossAt (a x) (b x) * Cert.Spec.hit (ids x) (r 0).val))
  rw [hA q, hB q, hI q]

/-- The program's region counts. -/
theorem cnts_read (I : Cert.Spec.SRows.Idx → BitVec 32) (ids : Cert.Spec.SX.Idx → BitVec 32)
    (hI : ∀ q, I q = ids (Cert.Spec.unrow q)) :
    extractStridedSlice S116 ![0]
        (Host.reduceAdd (F := Ideal) (Cert.Spec.cntsOut I : FVec Ideal S2x8x128 .f32) (constant (F := Ideal) S_ .f32 0x00000000#32)
          reducesTo_S2x8x128_S128_d0_1 h_S_)
        slices_S128_S116_0
      = Cert.Spec.regionCnt ids := by
  funext r
  rw [lanes_apply, lanes_cnts]
  show _ = ∑ x : Cert.Spec.SX.Idx, Cert.Spec.hit (ids x) (r 0).val
  refine Eq.trans (Finset.sum_congr rfl fun q _ => ?_)
    (Cert.Spec.sum_unrow (fun x => Cert.Spec.hit (ids x) (r 0).val))
  rw [hI q]

/-! ## The tail, read -/

/-- The result buffer after the lines that follow the region: `Cert.Spec.result` of the three inputs.  The lines form the
    region sums and counts (above) and then, operation for operation, the body of `Cert.Spec.result`. -/
theorem tail_eq (c : Dev nD) :
    Pipeline.afterTail₀ cfgs (dats m) 0 (V0 m) [hostOps1] c main_v22
      = Cert.Spec.result Cert.KernelIdeal.Gen.bcast_S_S116 Cert.KernelIdeal.Gen.reducesTo_S116_S_d0 Cert.KernelIdeal.Gen.h_S_
          (m ((c.tc : Thread nD τ).loc main_arg0)) (m ((c.tc : Thread nD τ).loc main_arg1)) (m ((c.tc : Thread nD τ).loc main_arg2)) := by
  have h3 : Pipeline.withArrays (cfgs 0).spec c (V0 m c) (fun w => (dats m 0 c).arrAt w (cfgs 0).N) (Proc.devRef .tc main_v3_0)
      = (Cert.Spec.sumsOut (V m c main_v0) (V m c main_v1) (V m c main_v2) : Buf (Elt Ideal) ((c : Thread nD τ).loc main_v3_0)) :=
    (Pipeline.withArrays_arr spec0 launch0.win.arr_inj c _ _ 3).trans (Accum.final3 m c)
  have h4 : Pipeline.withArrays (cfgs 0).spec c (V0 m c) (fun w => (dats m 0 c).arrAt w (cfgs 0).N) (Proc.devRef .tc main_v3_1)
      = (Cert.Spec.cntsOut (V m c main_v2) : Buf (Elt Ideal) ((c : Thread nD τ).loc main_v3_1)) :=
    (Pipeline.withArrays_arr spec0 launch0.win.arr_inj c _ _ 4).trans (Accum.final4 m c)
  have hs := sums_read (V m c main_v0) (V m c main_v1) (V m c main_v2)
    (m ((c.tc : Thread nD τ).loc main_arg0)) (m ((c.tc : Thread nD τ).loc main_arg1)) (m ((c.tc : Thread nD τ).loc main_arg2))
    (rows0 m c) (rows1 m c) (rows2 m c)
  have hc := cnts_read (V m c main_v2) (m ((c.tc : Thread nD τ).loc main_arg2)) (rows2 m c)
  unfold Pipeline.afterTail₀
  show StableHlo.after hostOps1 _ (Proc.devRef .tc main_v22) = _
  after_results_simp
  rw [h3, h4, hs, hc]
  rfl

end Helpers

/-- Every weakly fair execution of the kernel's program ends with its result at the common value of the three
    inputs, and the inputs unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v22)
        = Cert.Spec.result Cert.KernelIdeal.Gen.bcast_S_S116 Cert.KernelIdeal.Gen.reducesTo_S116_S_d0 Cert.KernelIdeal.Gen.h_S_
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v22 (Pipeline.mem_restRefs_of main_v22 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
import proofs.«430357_j57982058496540_3_alg».proof.Proof.Gen.ReferenceIdeal.Read
import proofs.«430357_j57982058496540_3_alg».proof.Proof.SumReindex
import Idealize.ShloMosaic.Lib.ValueIdx
import Idealize.ShloMosaic.Lib.Pipeline.Value
import Idealize.ShloMosaic.PureOps.Ideal.Laws

/-!
# The reference, read to its result

The reference scatters each element's loss (and a one) into the slot its region word names, which for a
slot `r` is the sum of the losses (the number) of the elements whose word is `r`: the region sums and counts.
From those it forms the weights, gathers each element's weight by its region word, and averages the weighted
losses.  When every region word is a region number below 116 the gather reads the element's own region's
weight, and regrouping the sum by region gives the weighted sum of the region sums: `Cert.Spec.result`.
-/

noncomputable section

namespace Cert.ReferenceIdeal.RefValue

open Idealize.ShloMosaic Idealize.ShloMosaic.TcCoe Cert.ReferenceIdeal Cert.ReferenceIdeal.Gen

/-! ## The flat positions -/

/-- The element the reference's reshape puts at flat position `j` is the one the common value calls `unflat j`. -/
theorem idx_v2_eq (j : S12582912.Idx) : Read.idx_main_v2 j = Cert.Spec.unflat j := by
  funext a
  match a with
  | ⟨0, _⟩ => rfl
  | ⟨1, _⟩ => rfl
  | ⟨2, _⟩ => rfl
  | ⟨3, _⟩ => rfl

/-- The same for the reshape of the losses. -/
theorem idx_v3_eq (j : S12582912.Idx) : Read.idx_main_v3 j = Cert.Spec.unflat j := by
  funext a
  match a with
  | ⟨0, _⟩ => rfl
  | ⟨1, _⟩ => rfl
  | ⟨2, _⟩ => rfl
  | ⟨3, _⟩ => rfl

/-- Row `j` of the one-column index array. -/
abbrev colIx (j : S12582912.Idx) : S12582912x1.Idx := fun b => match b with
  | ⟨0, _⟩ => ⟨(j 0).val, (j 0).isLt⟩
  | ⟨1, _⟩ => ⟨0, Nat.one_pos⟩

/-! ## The scatter -/

/-- The dimension numbers of both scatters: one index axis, the one operand axis inserted. -/
abbrev scatD : ScatterDims S116 S12582912x1 S12582912 := scatter_S116_S12582912x1_S12582912_n_0_0_1

/-- The window of update `j` starts at the word in row `j` of the index array, read signed. -/
theorem scat_start {w : Nat} (idx : IVec S12582912x1 w) (j : S12582912.Idx) :
    scatD.start j idx 0 = (idx (colIx j)).toInt := by
  unfold ScatterDims.start
  rw [dif_pos (show (0 : Fin 1) ∈ scatD.scatterDimsToOperandDims from List.mem_singleton.mpr rfl)]
  congr 2
  funext b
  refine Fin.ext ?_
  match b with
  | ⟨0, _⟩ => rfl
  | ⟨1, _⟩ => rfl

/-- The one operand axis is inserted: no window coordinate. -/
theorem scat_window (j : S12582912.Idx) : scatD.window j 0 = 0 := by
  unfold ScatterDims.window
  rw [dif_neg (by decide)]

/-- Update `j` lands on slot `i` exactly when its word, read signed, is `i`. -/
theorem scat_lands {w : Nat} (idx : IVec S12582912x1 w) (j : S12582912.Idx) (i : S116.Idx) :
    scatD.resultIdx? j idx = some i ↔ (idx (colIx j)).toInt = ((i 0).val : ℤ) := by
  have hi : (i 0).val < 116 := (i 0).isLt
  constructor
  · intro h
    unfold ScatterDims.resultIdx? at h
    split at h
    · rename_i hall
      have h1 := Option.some.inj h
      have h0 : (scatD.start j idx 0 + (scatD.window j 0 : ℤ)).toNat = (i 0).val :=
        congrArg (fun f : S116.Idx => (f 0).val) h1
      have h2 := (hall 0).1
      rw [scat_start, scat_window] at h0 h2
      omega
    · exact absurd h (by simp)
  · intro h
    unfold ScatterDims.resultIdx?
    have hall : ∀ a, 0 ≤ scatD.start j idx a + (scatD.window j a : ℤ)
        ∧ scatD.start j idx a + (scatD.window j a : ℤ) < ((S116.size a : ℕ) : ℤ) := by
      intro a
      obtain rfl : a = 0 := Subsingleton.elim _ _
      rw [scat_start, scat_window, h]
      show (0 : ℤ) ≤ ((i 0).val : ℤ) + ((0 : ℕ) : ℤ) ∧ ((i 0).val : ℤ) + ((0 : ℕ) : ℤ) < ((116 : ℕ) : ℤ)
      omega
    rw [dif_pos hall]
    congr 1
    funext a
    obtain rfl : a = 0 := Subsingleton.elim _ _
    refine Fin.ext ?_
    show (scatD.start j idx 0 + (scatD.window j 0 : ℤ)).toNat = (i 0).val
    rw [scat_start, scat_window, h]
    omega

/-- The accumulating scatter at slot `r`: the slot's initial value plus the sum of the updates whose word is `r`. -/
theorem scatterAdd_apply (x : FVec Ideal S116 .f32) (idx : IVec S12582912x1 32) (upd : FVec Ideal S12582912 .f32)
    (r : S116.Idx) :
    Host.scatterAdd (F := Ideal) scatD x idx upd r
      = x r + ∑ j : S12582912.Idx, upd j * Cert.Spec.hit (idx (colIx j)) (r 0).val := by
  show x r + ∑ j ∈ Finset.univ.filter (fun j => scatD.resultIdx? j idx = some r), upd j = _
  refine congrArg (x r + ·) ?_
  rw [Finset.sum_filter]
  refine Finset.sum_congr rfl (fun j _ => ?_)
  unfold Cert.Spec.hit
  by_cases h : (idx (colIx j)).toInt = ((r 0).val : ℤ)
  · rw [if_pos ((scat_lands idx j r).2 h), if_pos h, mul_one]
  · rw [if_neg (fun h' => h ((scat_lands idx j r).1 h')), if_neg h, mul_zero]

/-- The pattern `0x3F800000` is the number one. -/
theorem ofBits_one_f32 : Ideal.ofBits .f32 0x3F800000#32 = 1 := by
  simp [Ideal.ofBits, Ideal.ieee]
  rw [← EReal.coe_mul]
  norm_num

/-- The loss of one element. -/
theorem loss_apply (x0 x1 : FVec Ideal S16x3x512x512 .f32) (i : S16x3x512x512.Idx) :
    Read.val_main_v1 (F := Ideal) x0 x1 i = Cert.Spec.lossAt (x0 i) (x1 i) := rfl

/-- Row `j` of the index column is read from flat position `j` (first scatter's index array). -/
theorem idx_v5_col (j : S12582912.Idx) : Read.idx_main_v5 (colIx j) = j := by
  funext a
  match a with
  | ⟨0, _⟩ => rfl

/-- The same for the second scatter's index array. -/
theorem idx_v9_col (j : S12582912.Idx) : Read.idx_main_v9 (colIx j) = j := by
  funext a
  match a with
  | ⟨0, _⟩ => rfl

/-- The first scatter gives the region sums. -/
theorem v6_eq (x0 x1 : FVec Ideal S16x3x512x512 .f32) (x2 : IVec S16x3x512x512 32) :
    Read.val_main_v6 (F := Ideal) x0 x1 x2 = Cert.Spec.regionSum x0 x1 x2 := by
  funext r
  unfold Read.val_main_v6
  rw [scatterAdd_apply, Read.val_main_v4_apply, Read.val_main_cst_apply]
  show Ideal.ofBits .f32 0x00000000#32 + _ = _
  rw [Ideal.ofBits_zero_f32, zero_add]
  refine (Finset.sum_congr rfl (fun j _ => ?_)).trans
    (Cert.Spec.sum_unflat (fun x => Cert.Spec.lossAt (x0 x) (x1 x) * Cert.Spec.hit (x2 x) (r 0).val))
  rw [Read.val_main_v3_apply, idx_v3_eq, loss_apply, Read.val_main_v5_apply, idx_v5_col, Read.val_main_v2_apply,
    idx_v2_eq]

/-- The second scatter gives the region counts. -/
theorem v10_eq (x2 : IVec S16x3x512x512 32) :
    Read.val_main_v10 (F := Ideal) x2 = Cert.Spec.regionCnt x2 := by
  funext r
  unfold Read.val_main_v10
  rw [scatterAdd_apply, Read.val_main_v8_apply, Read.val_main_cst_1_apply]
  show Ideal.ofBits .f32 0x00000000#32 + _ = _
  rw [Ideal.ofBits_zero_f32, zero_add]
  refine (Finset.sum_congr rfl (fun j _ => ?_)).trans
    (Cert.Spec.sum_unflat (fun x => Cert.Spec.hit (x2 x) (r 0).val))
  rw [Read.val_main_v7_apply, Read.val_main_cst_0_apply]
  show Ideal.ofBits .f32 0x3F800000#32 * _ = _
  rw [ofBits_one_f32, one_mul, Read.val_main_v9_apply, idx_v9_col, Read.val_main_v2_apply, idx_v2_eq]

/-! ## The gather -/

/-- The dimension numbers of the gather: the one operand axis collapsed, slices of one element. -/
abbrev gathD : GatherDims S116 S16x3x512x512x1 S16x3x512x512 :=
  gather_S116_S16x3x512x512x1_S16x3x512x512_n_0_n_n_0_4_1

/-- The start-indices index `[a, b, c, d, 0]` of the result index `(a, b, c, d)`. -/
abbrev lastIx (y : S16x3x512x512.Idx) : S16x3x512x512x1.Idx := fun a => match a with
  | ⟨0, _⟩ => ⟨(y 0).val, (y 0).isLt⟩
  | ⟨1, _⟩ => ⟨(y 1).val, (y 1).isLt⟩
  | ⟨2, _⟩ => ⟨(y 2).val, (y 2).isLt⟩
  | ⟨3, _⟩ => ⟨(y 3).val, (y 3).isLt⟩
  | ⟨4, _⟩ => ⟨0, Nat.one_pos⟩

/-- The start word of element `y` is read from element `y` of the selected words. -/
theorem idx_v28_last (y : S16x3x512x512.Idx) : Read.idx_main_v28 (lastIx y) = y := by
  funext a
  match a with
  | ⟨0, _⟩ => rfl
  | ⟨1, _⟩ => rfl
  | ⟨2, _⟩ => rfl
  | ⟨3, _⟩ => rfl

/-- The gather at element `y`: the operand at the start word of `y`, read signed and clamped into `[0, 115]`. -/
theorem gather_apply {α : Type} {w : Nat} (x : S116.Idx → α) (idx : IVec S16x3x512x512x1 w) (y : S16x3x512x512.Idx) :
    Host.gather gathD x idx y
      = x (ValueIdx.ix1 (⟨min (idx (lastIx y)).toInt.toNat 115, by omega⟩ : Fin 116)) := by
  unfold Host.gather
  refine congrArg x ?_
  funext a
  obtain rfl : a = 0 := Subsingleton.elim _ _
  refine Fin.ext ?_
  show gathD.start y idx 0 + gathD.batchCoord y 0 + gathD.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gathD.startIndexMap from List.mem_singleton.mpr rfl)]
  have hsi : gathD.siIdx y ⟨List.idxOf (0 : Fin 1) gathD.startIndexMap,
      List.idxOf_lt_length_iff.2 (List.mem_singleton.mpr rfl)⟩ = lastIx y := by
    funext b
    refine Fin.ext ?_
    match b with
    | ⟨0, _⟩ => rfl
    | ⟨1, _⟩ => rfl
    | ⟨2, _⟩ => rfl
    | ⟨3, _⟩ => rfl
    | ⟨4, _⟩ => rfl
  rw [hsi]
  rfl

/-- A region word that is not negative is gathered by itself: the wrap-around of negative words does not apply. -/
theorem index_word (x2 : IVec S16x3x512x512 32) (y : S16x3x512x512.Idx) (h : 0 ≤ (x2 y).toInt) :
    Read.val_main_v27 (F := Ideal) x2 y = x2 y := by
  rw [Read.val_main_v27_apply, Read.val_main_v24_apply, Read.val_main_v23_apply, Read.val_main_c_apply]
  have hs : (x2 y).slt 0#32 = false := by
    have h0 : (0#32 : BitVec 32).toInt = 0 := by decide
    simp only [BitVec.slt, h0]
    exact decide_eq_false (not_lt.mpr h)
  have hc : IntOp.cmpi .slt (x2 y) 0#32 = 0#1 := by
    show BitVec.ofBool ((x2 y).slt 0#32) = 0#1
    rw [hs]
    rfl
  rw [hc]
  exact ValueIdx.select_zero _ _

/-- With every region word a region number below 116, the gather reads the element's own region's weight. -/
theorem v29_apply (x0 x1 : FVec Ideal S16x3x512x512 .f32) (x2 : IVec S16x3x512x512 32)
    (hin : ∀ x, 0 ≤ (x2 x).toInt ∧ (x2 x).toInt < 116) (y : S16x3x512x512.Idx) :
    Read.val_main_v29 (F := Ideal) x0 x1 x2 y
      = Read.val_main_v22 (F := Ideal) x0 x1 x2
          (ValueIdx.ix1 (⟨(x2 y).toInt.toNat, by have := hin y; omega⟩ : Fin 116)) := by
  unfold Read.val_main_v29
  rw [gather_apply]
  refine congrArg (Read.val_main_v22 (F := Ideal) x0 x1 x2) ?_
  refine congrArg ValueIdx.ix1 (Fin.ext ?_)
  show min (Read.val_main_v28 (F := Ideal) x2 (lastIx y)).toInt.toNat 115 = (x2 y).toInt.toNat
  rw [Read.val_main_v28_apply, idx_v28_last, index_word x2 y (hin y).1]
  have := hin y
  omega

/-! ## The weights, the final sums, the result -/

/-- The reference's weights are the common weights of its two scatters. -/
theorem v22_eq (x0 x1 : FVec Ideal S16x3x512x512 .f32) (x2 : IVec S16x3x512x512 32) :
    Read.val_main_v22 (F := Ideal) x0 x1 x2
      = Cert.Spec.weights bcast_S_S116 reducesTo_S116_S_d0 h_S_ (Cert.Spec.regionSum x0 x1 x2)
          (Cert.Spec.regionCnt x2) := by
  have h : Read.val_main_v22 (F := Ideal) x0 x1 x2
      = Cert.Spec.weights bcast_S_S116 reducesTo_S116_S_d0 h_S_ (Read.val_main_v6 (F := Ideal) x0 x1 x2)
          (Read.val_main_v10 (F := Ideal) x2) := rfl
  rw [h, v6_eq, v10_eq]

/-- The host's sum of a per-region vector from the zero pattern is the sum of its 116 entries. -/
theorem reduceAdd_regions (v : FVec Ideal S116 .f32) (i : S_.Idx) :
    Host.reduceAdd (F := Ideal) v (constant (F := Ideal) S_ .f32 0x00000000#32) reducesTo_S116_S_d0 h_S_ i
      = ∑ r : S116.Idx, v r := by
  simp only [Host.reduceAdd, Ideal.hostReduceAdd_def]
  rw [Ideal.hostReduceAdd_total reducesTo_S116_S_d0 (fun b => b.elim0) v _ i]
  show Ideal.ofBits .f32 0x00000000#32 + _ = _
  rw [Ideal.ofBits_zero_f32, zero_add]

/-- The reference's result term is the common value, for region words in range. -/
theorem ref_value (x0 x1 : FVec Ideal S16x3x512x512 .f32) (x2 : IVec S16x3x512x512 32)
    (hin : ∀ x, 0 ≤ (x2 x).toInt ∧ (x2 x).toInt < 116) :
    Cert.ReferenceIdeal.Read.val_main_v32 (F := Ideal) x0 x1 x2
      = Cert.Spec.result Cert.ReferenceIdeal.Gen.bcast_S_S116 Cert.ReferenceIdeal.Gen.reducesTo_S116_S_d0 Cert.ReferenceIdeal.Gen.h_S_ x0 x1 x2 := by
  unfold Read.val_main_v32 Cert.Spec.result
  refine congrArg (fun v => Host.divf (F := Ideal) v (constant (F := Ideal) S_ .f32 0x4B400000#32)) ?_
  funext i
  rw [Read.val_main_v31_apply, reduceAdd_regions]
  show Ideal.ofBits .f32 0x00000000#32 + _ = _
  rw [Ideal.ofBits_zero_f32, zero_add]
  -- the sum of the weighted losses, regrouped by region
  have hw := Cert.Spec.weighted_regions x0 x1 x2 hin
    (Cert.Spec.weights bcast_S_S116 reducesTo_S116_S_d0 h_S_ (Cert.Spec.regionSum x0 x1 x2) (Cert.Spec.regionCnt x2))
  refine (Finset.sum_congr rfl (fun j _ => ?_)).trans hw.symm
  rw [Read.val_main_v30_apply, v29_apply x0 x1 x2 hin, v22_eq, loss_apply]
  rfl

end Cert.ReferenceIdeal.RefValue

end
-- ==== Proof.PreDecode.lean ====
import proofs.«430357_j57982058496540_3_alg».proof.Pre_finite_inputs
import proofs.«430357_j57982058496540_3_alg».proof.Proof.Gen.Pre_finite_inputs
import Idealize.ShloMosaic.PureOps.Ideal
import Idealize.ShloMosaic.Lib.ReduceAll
import Idealize.ShloMosaic.Lib.StableHlo.Predicate

/-!
# What the precondition says of the region words

The precondition is a conjunction of four all-reductions; its last two say that every region word, read
signed, is at least 0 and below 116.
-/

noncomputable section

namespace Cert.PreDecode

open Idealize.ShloMosaic Cert.Pre_finite_inputs

private instance subsingleton_scalar_idx : Subsingleton S_.Idx := ⟨fun a b => funext fun d => d.elim0⟩

/-- Under the precondition every region word is a region number: at least 0 and below 116. -/
theorem ids_in_range [Cert.Pre_finite_inputs.Facts] (a b : FVec Ideal S16x3x512x512 .f32) (ids : IVec S16x3x512x512 32)
    (h : Cert.Pre_finite_inputs.fn (F := Ideal) a b ids = fun _ => 1#1) :
    ∀ x, 0 ≤ (ids x).toInt ∧ (ids x).toInt < 116 := by
  intro x
  -- The predicate at its one index, with the chain of operations in view.
  have h0 := congrFun h (fun d => d.elim0)
  dsimp only [Cert.Pre_finite_inputs.fn, Cert.Pre_finite_inputs.fn_part1] at h0
  -- The outer conjunction: the first three reductions together, and the fourth.
  obtain ⟨h12, h15⟩ := IntOp.andi_eq_one.1 h0
  -- The next conjunction: the two float reductions together, and the third.
  obtain ⟨-, h11⟩ := IntOp.andi_eq_one.1 h12
  -- Each all-reduction by conjunction that is 1 had a 1 at every element.
  have hge := Host.reduce_andi_all _ _ _ _ _ h11 x
  have hlt := Host.reduce_andi_all _ _ _ _ _ h15 x
  -- At the element: the comparison words, with the broadcast constants read at x.
  have hge' : IntOp.cmpi .sge (ids x) 0#32 = 1#1 := by
    rw [← hge]; show _ = IntOp.cmpi .sge (ids x) _; congr 1
  have hlt' : IntOp.cmpi .slt (ids x) 116#32 = 1#1 := by
    rw [← hlt]; show _ = IntOp.cmpi .slt (ids x) _; congr 1
  rw [IntOp.cmpi_sge] at hge'
  rw [IntOp.cmpi_slt] at hlt'
  exact ⟨by simpa using hge', by simpa using hlt'⟩

end Cert.PreDecode

end
-- ==== Proof.lean ====
/-
  The kernel computes a region-weighted mean absolute error.  Every element of the three [16, 3, 512, 512]
  inputs has a loss |real - fake| and a region word.  Both programs form, for each of the 116 regions, the sum
  of its elements' losses and their number, from those the same per-region weights, and return a weighted mean
  of the losses.  The reference gathers each element's weight by its region word and averages the weighted
  losses over all elements; the kernel uses that the weight depends on the region alone and returns the
  weighted sum of the region sums over the number of elements.  The two agree when every region word is one of
  the 116 region numbers — the precondition's added conjunct; outside that range the reference's gather wraps
  and clamps the word while its segment sums drop it, so the two programs really differ there.  On the
  extended reals no finiteness is needed: a loss is non-negative, so a weight distributes over a region's sum
  whatever its value, and a mask factor is exactly 0 or 1.

  The kernel's side: the body's 116 unrolled region steps are a fold (Proof/BodyFold), whose two lane
  accumulators hold the block's per-region totals (Proof/BodyValue); over the 2 × 12 grid the two output arrays
  accumulate the totals of each core's twelve blocks (Proof/Accum); the host operations after the region reduce
  them to the region sums and counts and finish (Proof/KernelTail).  The reference's side: Proof/RefValue reads
  its scatters, its gather and its final sum.  Both end at the one value of Proof/Spec.
-/
import proofs.«430357_j57982058496540_3_alg».proof.Defs
import proofs.«430357_j57982058496540_3_alg».proof.Proof.Gen.Kernel
import proofs.«430357_j57982058496540_3_alg».proof.Proof.Gen.Kernel.Frame
import proofs.«430357_j57982058496540_3_alg».proof.Proof.Gen.KernelIdeal
import proofs.«430357_j57982058496540_3_alg».proof.Proof.Gen.KernelIdeal.Frame
import proofs.«430357_j57982058496540_3_alg».proof.Proof.Gen.ReferenceIdeal
import proofs.«430357_j57982058496540_3_alg».proof.Proof.Gen.ReferenceIdeal.Run
import proofs.«430357_j57982058496540_3_alg».proof.Proof.Gen.ReferenceIdeal.Read
import proofs.«430357_j57982058496540_3_alg».proof.Proof.Gen.Pre_finite_inputs
import proofs.«430357_j57982058496540_3_alg».proof.Proof.KernelTail
import proofs.«430357_j57982058496540_3_alg».proof.Proof.RefValue
import proofs.«430357_j57982058496540_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its inputs unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the weighted sum of the region sums over the number of elements. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v32_eq _ _ _).trans
    (Cert.ReferenceIdeal.RefValue.ref_value _ _ _ (Cert.PreDecode.ids_in_range _ _ _ (hpre c)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
